-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![1024, 512]⟩ ⟨2, ![2048, 1024]⟩ (Layout.meshBlock [2, 2] ![[0], [1]] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![1024, 1]⟩ ⟨2, ![2048, 1]⟩ (Layout.meshBlock [2, 2] ![[0], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S1024x512 : Shape := ⟨2, ![1024, 512]⟩
abbrev S_ : Shape := ⟨0, ![]⟩

class Facts : Prop where
  bcast_S_S1024x512 : S_.BroadcastsInDim S1024x512 (![] : Fin 0 → Fin S1024x512.rank)
  reducesTo_S1024x512_S_d0_1 : S1024x512.ReducesTo [0, 1] S_
  h_S_ : 0 < S_.numel

variable [Facts]

def fn {F : FTy → Type} [FloatOps F] (main_arg0 : FVec F S1024x512 .f32) : IVec S_ 1 :=
  let main_v0 : FVec F S1024x512 .f32 := Host.absf main_arg0
  let main_cst : FVec F S_ .f32 := constant S_ .f32 0x7F800000#32
  let main_v1 : FVec F S1024x512 .f32 := broadcastInDim S1024x512 ![] bcast_S_S1024x512 main_cst
  let main_v2 : IVec S1024x512 1 := cmpf .olt main_v0 main_v1
  let main_c : IVec S_ 1 := constantI S_ 1 1#1
  let main_v3 : IVec S_ 1 := (fun x v => Host.reduce IntOp.andi x v reducesTo_S1024x512_S_d0_1 h_S_) main_v2 main_c
  main_v3
-- ==== Pre_finite_inputs_ReferenceIdeal.lean ====
abbrev S2048x1024 : Shape := ⟨2, ![2048, 1024]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel

variable [Facts]

def fn {F : FTy → Type} [FloatOps F] (main_arg0 : FVec F S2048x1024 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  main_v3
-- ==== Kernel.lean ====
abbrev S1024x512 : Shape := ⟨2, ![1024, 512]⟩
abbrev S1024x1 : Shape := ⟨2, ![1024, 1]⟩
abbrev S2x1x1024 : Shape := ⟨3, ![2, 1, 1024]⟩
abbrev S_ : Shape := ⟨0, ![]⟩
abbrev S1024x128 : Shape := ⟨2, ![1024, 128]⟩
abbrev S128x1024 : Shape := ⟨2, ![128, 1024]⟩
abbrev S1024 : Shape := ⟨1, ![1024]⟩
abbrev S1x1024 : Shape := ⟨2, ![1, 1024]⟩
abbrev S1x1x1024 : Shape := ⟨3, ![1, 1, 1024]⟩

abbrev nBuf : Space → Nat
  | .hbm => 2
  | .vmem => 3
  | .smem => 0
  | _ => 0

abbrev bufTy : (tb : Table) → Fin (tcTables nBuf tb) → BufTy
  | .hbm, ⟨0, _⟩ => ⟨S1024x512, .f32⟩
  | .hbm, ⟨1, _⟩ => ⟨S1024x1, .f32⟩
  | .local _ .vmem, ⟨0, _⟩ => ⟨S1024x512, .f32⟩
  | .local _ .vmem, ⟨1, _⟩ => ⟨S1024x1, .f32⟩
  | .local _ .vmem, ⟨2, _⟩ => ⟨S2x1x1024, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 4 → Bool
  | ⟨0, _⟩ => true
  | ⟨1, _⟩ => true
  | ⟨2, _⟩ => true
  | ⟨3, _⟩ => true
  | _ => false

abbrev sig : RefSig :=
  (ofTc nBuf bufTy 1 4 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_4 : BitVec 32 := 2#32
  let v8 : BitVec 32 := Scalar.muli v2 c2_i32_4
  let v9 : BitVec 32 := Scalar.addi c0_i32 v8
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_5 : BitVec 32 := 1#32
  let v10 : BitVec 32 := Scalar.muli v6 c1_i32_5
  let v11 : BitVec 32 := Scalar.addi v9 v10
  v11.toNat
def k0_dev2 (d0 : Dev nD) : Nat :=
  let c0_i32_14 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_13 : BitVec 32 := 2#32
  let v27 : BitVec 32 := Scalar.muli v2 c2_i32_13
  let v28 : BitVec 32 := Scalar.addi c0_i32_14 v27
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_15 : BitVec 32 := 1#32
  let v29 : BitVec 32 := Scalar.muli v6 c1_i32_15
  let v30 : BitVec 32 := Scalar.addi v28 v29
  v30.toNat
abbrev stage0_0 : Fin 1 → Memref sig .tc .vmem S1024x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  hamt_1 : (1#32 : BitVec 32).msb = false
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  slices_S1024x512_o0_0_S1024x128 : S1024x512.Slices ![0, 0] S1024x128
  slices_S1024x512_o0_128_S1024x128 : S1024x512.Slices ![0, 128] S1024x128
  slices_S1024x512_o0_256_S1024x128 : S1024x512.Slices ![0, 256] S1024x128
  slices_S1024x512_o0_384_S1024x128 : S1024x512.Slices ![0, 384] S1024x128
  transposes_S1024x128_p1_0_S128x1024 : S1024x128.Transposes [1, 0] S128x1024
  reduces_S128x1024_S1024 : S128x1024.Reduces [0] S1024
  shapeCasts_S1024_S1x1024 : S1024.ShapeCasts S1x1024
  inb_S2x1x1024_S1x1x1024_0_0_0 : ∀ a, (![0, 0, 0] : Fin 3 → Nat) a + S1x1x1024.size a ≤ S2x1x1024.size a
  h_S1x1x1024 : 0 < S1x1x1024.numel
  shapeCasts_S1x1x1024_S1x1024 : S1x1x1024.ShapeCasts S1x1024
  shapeCasts_S1x1024_S1x1x1024 : S1x1024.ShapeCasts S1x1x1024
  inb_S2x1x1024_S1x1x1024_1_0_0 : ∀ a, (![1, 0, 0] : Fin 3 → Nat) a + S1x1x1024.size a ≤ S2x1x1024.size a
  squeezes_S1x1x1024_S1x1024 : S1x1x1024.Squeezes S1x1024
  transposes_S1x1024_p1_0_S1024x1 : S1x1024.Transposes [1, 0] S1024x1
  inb_S1024x1_S1024x1_0_0 : ∀ a, (![0, 0] : Fin 2 → Nat) a + S1024x1.size a ≤ S1024x1.size a
  h_S1024x1 : 0 < S1024x1.numel
  hcc0_scratch1 : 2 + S_.numel ≤ 4
  hcc0_scratch2 : 3 + S_.numel ≤ 4
  k0_dev1_lt : ∀ d0 : Dev nD, (k0_dev1 d0) < nD
  k0_dev2_lt : ∀ d0 : Dev nD, (k0_dev2 d0) < nD
  hstage0_0 : ∀ j, (stage0_0 j).IsWhole
  hstage0_1 : ∀ j, (stage0_1 j).IsWhole

variable [Facts₀]

abbrev cc0_scratch1 : DmaSems sig S_ := SemArray.consecutive 2 S_ hcc0_scratch1
abbrev cc0_scratch2 : DmaSems sig S_ := SemArray.consecutive 3 S_ hcc0_scratch2

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v1) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S2048x1024 : Shape := ⟨2, ![2048, 1024]⟩
abbrev S_ : Shape := ⟨0, ![]⟩
abbrev S2048 : Shape := ⟨1, ![2048]⟩
abbrev S2048x1 : Shape := ⟨2, ![2048, 1]⟩

abbrev nBuf : Space → Nat
  | .hbm => 4
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S_, .f32⟩
  | .hbm, ⟨2, _⟩ => ⟨S2048, .f32⟩
  | .hbm, ⟨3, _⟩ => ⟨S2048x1, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]

class Facts₀ : Prop where
  reducesTo_S2048x1024_S2048_d1 : S2048x1024.ReducesTo [1] S2048
  h_S_ : 0 < S_.numel
  bcast_S2048_S2048x1_0 : S2048.BroadcastsInDim S2048x1 (![0] : Fin 1 → Fin S2048x1.rank)

variable [Facts₀]

class Facts : Prop extends Facts₀ where

variable [Facts]
-- ==== Proof.ProtoA.lean ====
/-
# Row sums across a row of the 2 × 2 mesh: the protocol

Device `c = (i, j)` holds the block of `x` at rows `[1024 i, 1024 i + 1024)`, columns `[512 j, 512 j + 512)`.
It sums its block along the columns into slot 0 of a two-slot scratch row, sends that slot into slot 1 of its
row mate's scratch (the device `(i, 1 - j)`), and adds the two slots: every device of a row ends with the
row sums over all 1024 columns.

The protocol, in the rounds discipline: three cells a device, one duty each, all at round 0.
* the barrier cell: paid by the row mate's signal; it hands over the row mate's slot 1 (any contents) and the
  fact that the row mate has reached round 0 of its receive cell — what a transfer into that slot needs;
* the send cell: paid by the device's own transfer once slot 0 is read; it hands slot 0 back, still holding the
  device's partial sums;
* the receive cell: paid by the row mate's transfer once slot 1 is written; it hands slot 1 back, holding the row
  mate's partial sums.
A device owes its row mate's barrier cell one unit and its receive cell the slot's credit; it waits on its own
barrier cell (level 1) owing only a receive cell (level 2), and on its send and receive cells owing nothing.
-/
import proofs.«901099_g7700000000001100_dist_sum_ax1_xy_m1024_n512_v7x_xy2x2_bf16_1_alg».proof.Proof.Gen.KernelIdeal
import proofs.«901099_g7700000000001100_dist_sum_ax1_xy_m1024_n512_v7x_xy2x2_bf16_1_alg».proof.Proof.Gen.KernelIdeal.Skeleton
import proofs.«901099_g7700000000001100_dist_sum_ax1_xy_m1024_n512_v7x_xy2x2_bf16_1_alg».proof.Proof.Gen.KernelIdeal.Launch
import proofs.«901099_g7700000000001100_dist_sum_ax1_xy_m1024_n512_v7x_xy2x2_bf16_1_alg».proof.Proof.Gen.KernelIdeal.Points
import Idealize.ShloMosaic.Lib.Pipeline.Launch
import Idealize.ShloMosaic.Lib.Pipeline.Kit
import Idealize.ShloMosaic.Lib.Pipeline.Value
import Idealize.ShloMosaic.Lib.Tactic

noncomputable section

namespace Cert.KernelIdeal.Proto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy and the protocol's, duties `Unit` -/

abbrev UU : Type := UR sig nD τ × UR sig nD τ

local notation "𝕄" => MT nD τ sig Unit (Elt F) ℕ UU ℕ

abbrev EP : Emb (UR sig nD τ) (MT nD τ sig Unit (Elt F) ℕ UU ℕ) := embL
abbrev ER : Emb (UR sig nD τ) (MT nD τ sig Unit (Elt F) ℕ UU ℕ) := embR

variable (m : (ℓ : Loc nD τ sig) → Buf (Elt F) ℓ) (ρ : Dev nD → PrngReg)

/-! ## The row mate -/

/-- Device `c = 2 i + j` swaps with `2 i + (1 - j)`. -/
def peer (c : Dev nD) : Dev nD := ⟨(2 * (c.val / 2) + 1) - (c.val % 2), by have h : c.val < 4 := c.isLt; show _ < 4; omega⟩

theorem peer_peer (c : Dev nD) : peer (peer c) = c := by revert c; decide
theorem peer_ne (c : Dev nD) : peer c ≠ c := by revert c; decide

/-- Both `device_id` chains of the kernel (the signal's, the transfer's) name the row mate. -/
theorem dev1_eq (c : Dev nD) : (⟨k0_dev1 c, k0_dev1_lt c⟩ : Dev nD) = peer c := Fin.ext (k0_dev1_eq c)
theorem dev2_eq (c : Dev nD) : (⟨k0_dev2 c, k0_dev2_lt c⟩ : Dev nD) = peer c := Fin.ext (k0_dev2_eq c)

/-- The swap as a permutation of the devices. -/
def swap : Dev nD ≃ Dev nD := ⟨peer, peer, peer_peer, peer_peer⟩

/-! ## The memrefs, the two slots of the scratch row, the cells -/

abbrev xM : Memref sig .tc .vmem S1024x512 .f32 := Memref.whole cc0_stg0_0
abbrev oM : Memref sig .tc .vmem S1024x1 .f32 := Memref.whole cc0_stg1_0
abbrev scr : Memref sig .tc .vmem S2x1x1024 .f32 := Memref.whole cc0_scratch0

abbrev rect0 : Rect S2x1x1024 := Rect.unit (s := S2x1x1024) ![0, 0, 0] S1x1x1024.size inb_S2x1x1024_S1x1x1024_0_0_0
abbrev rect1 : Rect S2x1x1024 := Rect.unit (s := S2x1x1024) ![1, 0, 0] S1x1x1024.size inb_S2x1x1024_S1x1x1024_1_0_0

/-- Slot 0 and slot 1 as the transfer names them: the slice, squeezed to a row. -/
abbrev sl0 : Memref sig .tc .vmem S1x1024 .f32 := (scr.slice rect0 (fun _ => rfl)).squeeze S1x1024 squeezes_S1x1x1024_S1x1024
abbrev sl1 : Memref sig .tc .vmem S1x1024 .f32 := (scr.slice rect1 (fun _ => rfl)).squeeze S1x1024 squeezes_S1x1x1024_S1x1024

abbrev barS : Sem sig := (SemArray.scalar (sig.barrier 0 rfl) : Sems sig S_).sem
abbrev sendS : DmaSems sig S_ := cc0_scratch1
abbrev recvS : DmaSems sig S_ := cc0_scratch2

abbrev barCell (c : Dev nD) : GSem nD τ sig := ((c : Thread nD τ), .reg barS)
abbrev sendCell (c : Dev nD) : GSem nD τ sig := ((c : Thread nD τ), .dma sendS.sem)
abbrev recvCell (c : Dev nD) : GSem nD τ sig := ((c : Thread nD τ), .dma recvS.sem)

/-- The kernel's own (scoped) semaphores: send, receive; -/
abbrev osem : Fin 2 → SemLoc sig := fun | 0 => .dma sendS.sem | 1 => .dma recvS.sem
/-- all three of the protocol's: barrier, send, receive. -/
abbrev csem : Fin 3 → SemLoc sig := fun | 0 => .reg barS | 1 => .dma sendS.sem | 2 => .dma recvS.sem
abbrev kcell (ck : Dev nD × Fin 3) : GSem nD τ sig := ((ck.1 : Thread nD τ), csem ck.2)

abbrev N : ℕ := (sl1 : Memref sig .tc .vmem S1x1024 .f32).view.dmaCredit
theorem N_pos : 0 < N := View.dmaCredit_pos _ (by decide)

/-! ## Contents -/

abbrev Scr (F : FTy → Type) : Type := (cc0_scratch0 : Ref sig .tc).ty.Contents (Elt F)

/-- Device `c`'s block of `x`, as staged. -/
def xblk (c : Dev nD) : (cc0_stg0_0 : Ref sig .tc).ty.Contents (Elt F) :=
  (win0_0.blk (0 : Fin 1)).view.read (Elt F) (m ((c : Thread nD τ).loc main_arg0))

/-- Device `c`'s partial row sums: its block summed along its 512 columns. -/
def part (c : Dev nD) : Vec F S1x1x1024 .f32 := k0_pay2 (xblk m c)

/-- What a load of slot 0, of slot 1, reads off the scratch row's contents. -/
abbrev rd0 (f : Scr F) : Vec F S1x1x1024 .f32 := (scr : Memref sig .tc .vmem S2x1x1024 .f32).view.readAt (Elt F) rect0.toLoadRect f
abbrev rd1 (f : Scr F) : Vec F S1x1x1024 .f32 := (scr : Memref sig .tc .vmem S2x1x1024 .f32).view.readAt (Elt F) rect1.toLoadRect f

/-- The elements of slot 0, of slot 1. -/
abbrev set0 : Finset S2x1x1024.Idx := (sl0 : Memref sig .tc .vmem S1x1024 .f32).view.set
abbrev set1 : Finset S2x1x1024.Idx := (sl1 : Memref sig .tc .vmem S1x1024 .f32).view.set

def slot0 (c : Dev nD) (f : Scr F) : sProp 𝕄 :=
  (sl0 : Memref sig .tc .vmem S1x1024 .f32).view.loc (c : Thread nD τ) ↦[(sl0 : Memref sig .tc .vmem S1x1024 .f32).view.set]{fullShare} f
def slot1 (c : Dev nD) (f : Scr F) : sProp 𝕄 :=
  (sl1 : Memref sig .tc .vmem S1x1024 .f32).view.loc (c : Thread nD τ) ↦[(sl1 : Memref sig .tc .vmem S1x1024 .f32).view.set]{fullShare} f

omit [FloatOps F] in
instance slot0_storable (c : Dev nD) (f : Scr F) : BI.Storable (upEmb : UEmb _ 𝕄) (slot0 (F := F) c f) := by unfold slot0; infer_instance
omit [FloatOps F] in
instance slot1_storable (c : Dev nD) (f : Scr F) : BI.Storable (upEmb : UEmb _ 𝕄) (slot1 (F := F) c f) := by unfold slot1; infer_instance

end Cert.KernelIdeal.Proto

end
-- ==== Proof.Slots.lean ====
/-
# The two slots of the scratch row

The scratch row has shape 2 × 1 × 1024. Its elements with first coordinate 0 are slot 0, those with first coordinate 1
slot 1: the two are disjoint and cover the row, so the row's ownership splits into the two slots' and is put back from
them. A transfer from slot 0 of one row into slot 1 of another, through the views squeezed to 1 × 1024, leaves in slot 1
exactly what slot 0 held, element by element.
-/
import proofs.«901099_g7700000000001100_dist_sum_ax1_xy_m1024_n512_v7x_xy2x2_bf16_1_alg».proof.Proof.Gen.KernelIdeal
import proofs.«901099_g7700000000001100_dist_sum_ax1_xy_m1024_n512_v7x_xy2x2_bf16_1_alg».proof.Proof.Gen.KernelIdeal.Skeleton
import proofs.«901099_g7700000000001100_dist_sum_ax1_xy_m1024_n512_v7x_xy2x2_bf16_1_alg».proof.Proof.Gen.KernelIdeal.Launch
import proofs.«901099_g7700000000001100_dist_sum_ax1_xy_m1024_n512_v7x_xy2x2_bf16_1_alg».proof.Proof.Gen.KernelIdeal.Points
import proofs.«901099_g7700000000001100_dist_sum_ax1_xy_m1024_n512_v7x_xy2x2_bf16_1_alg».proof.Proof.ProtoA
import Idealize.ShloMosaic.Lib.Pipeline.Launch
import Idealize.ShloMosaic.Lib.Pipeline.Kit
import Idealize.ShloMosaic.Lib.Pipeline.Value
import Idealize.ShloMosaic.Lib.Tactic

noncomputable section

namespace Cert.KernelIdeal.Proto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

theorem set0_eq : set0 = rect0.set :=
  (View.set_reshape _ _).trans ((View.set_slice _ rect0).trans (Finset.map_refl))
theorem set1_eq : set1 = rect1.set :=
  (View.set_reshape _ _).trans ((View.set_slice _ rect1).trans (Finset.map_refl))

theorem mem_set0 (i : S2x1x1024.Idx) : Iff (i ∈ set0) ((i 0).val = 0) := by
  have h1 : (i 1).val < 1 := (i 1).isLt
  have h2 : (i 2).val < 1024 := (i 2).isLt
  rw [set0_eq, Rect.mem_set_unit]
  constructor
  · intro h; have := h 0; simp at this; omega
  · intro h a; fin_cases a <;> simp <;> omega
theorem mem_set1 (i : S2x1x1024.Idx) : Iff (i ∈ set1) ((i 0).val = 1) := by
  have h1 : (i 1).val < 1 := (i 1).isLt
  have h2 : (i 2).val < 1024 := (i 2).isLt
  rw [set1_eq, Rect.mem_set_unit]
  constructor
  · intro h; have := h 0; simp at this; omega
  · intro h a; fin_cases a <;> simp <;> omega

theorem sets_disjoint : Disjoint set0 set1 :=
  Finset.disjoint_left.mpr fun i h0 h1 => by rw [mem_set0] at h0; rw [mem_set1] at h1; omega
theorem sets_cover : set0 ∪ set1 = Finset.univ := by
  ext i; simp only [Finset.mem_union, Finset.mem_univ, iff_true, mem_set0, mem_set1]
  have : (i 0).val < 2 := (i 0).isLt
  omega

/-- The elements a store or a load at slot 0 (slot 1) touches are the slot's. -/
theorem acc0_set : ((scr : Memref sig .tc .vmem S2x1x1024 .f32).access rect0).set = set0 := (View.set_reshape _ _).symm
theorem acc1_set : ((scr : Memref sig .tc .vmem S2x1x1024 .f32).access rect1).set = set1 := (View.set_reshape _ _).symm

omit [FloatOps F] in
/-- A load of slot 0 after a store of the whole slot reads what was stored. -/
theorem rd0_store (f : Scr F) (w : Vec F S1x1x1024 .f32) :
    rd0 (((scr : Memref sig .tc .vmem S2x1x1024 .f32).access rect0).write (Elt F) f w Finset.univ) = w :=
  View.read_write_univ (v := (scr : Memref sig .tc .vmem S2x1x1024 .f32).access rect0) f w

omit [FloatOps F] in
/-- What lands in slot 1 through the squeezed views is what slot 0 of the source held, whatever slot 1 held before. -/
theorem landing (fd fs : Scr F) :
    rd1 ((sl1 : Memref sig .tc .vmem S1x1024 .f32).view.write (Elt F) fd ((sl0 : Memref sig .tc .vmem S1x1024 .f32).view.read (Elt F) fs) Finset.univ) = rd0 fs := by
  funext y
  show ((scr : Memref sig .tc .vmem S2x1x1024 .f32).view.slice rect1).read (Elt F) _ y = ((scr : Memref sig .tc .vmem S2x1x1024 .f32).view.slice rect0).read (Elt F) fs y
  have e1 : ((scr : Memref sig .tc .vmem S2x1x1024 .f32).view.slice rect1).emb y
      = (sl1 : Memref sig .tc .vmem S1x1024 .f32).view.emb ((Shape.reshapeEquiv squeezes_S1x1x1024_S1x1024.numel_eq).symm y) := by
    show _ = ((Shape.reshapeEquiv _).toEmbedding.trans _) _
    simp
  have e0 : (sl0 : Memref sig .tc .vmem S1x1024 .f32).view.emb ((Shape.reshapeEquiv squeezes_S1x1x1024_S1x1024.numel_eq).symm y)
      = ((scr : Memref sig .tc .vmem S2x1x1024 .f32).view.slice rect0).emb y := by
    show ((Shape.reshapeEquiv _).toEmbedding.trans _) _ = _
    simp
  rw [View.read_apply, e1, View.write_emb_of_mem _ _ (Finset.mem_univ _), View.read_apply, View.read_apply, e0]
  simp only [cast_cast, cast_eq]

omit [FloatOps F] in
/-- The row's ownership is its two slots'. -/
theorem scr_split (c : Dev nD) (f : Scr F) :
    ((((c : Thread nD τ).loc cc0_scratch0) ↦{fullShare} f) : sProp 𝕄) ⊢ iprop(slot0 c f ∗ slot1 c f) := by
  unfold slot0 slot1
  have h := (pointsTo_union (Ix := Unit) (Name := ℕ) (U := UU) (Lvl := ℕ) (ℓ := (c : Thread nD τ).loc cc0_scratch0) (q := fullShare) (f := f) sets_disjoint).1
  rw [sets_cover] at h
  exact h

omit [FloatOps F] in
/-- Put back from its two slots, at whatever each holds. -/
theorem scr_join (c : Dev nD) (f g : Scr F) :
    (iprop(slot0 c f ∗ slot1 c g) : sProp 𝕄) ⊢ iprop(∃ h : Scr F, ((c : Thread nD τ).loc cc0_scratch0) ↦{fullShare} h) := by
  unfold slot0 slot1
  have h := pointsTo_join (Ix := Unit) (Name := ℕ) (U := UU) (Lvl := ℕ) (ℓ := (c : Thread nD τ).loc cc0_scratch0) (q := fullShare) (f := f) (g := g) sets_disjoint
  rw [sets_cover] at h
  iintro H
  iexists _
  iapply h
  iexact H

end Cert.KernelIdeal.Proto

end
-- ==== Proof.ProtoB.lean ====
/-
# The schedule of the row exchange, what a device owes, the levels, the proof data
-/
import proofs.«901099_g7700000000001100_dist_sum_ax1_xy_m1024_n512_v7x_xy2x2_bf16_1_alg».proof.Proof.Gen.KernelIdeal
import proofs.«901099_g7700000000001100_dist_sum_ax1_xy_m1024_n512_v7x_xy2x2_bf16_1_alg».proof.Proof.Gen.KernelIdeal.Skeleton
import proofs.«901099_g7700000000001100_dist_sum_ax1_xy_m1024_n512_v7x_xy2x2_bf16_1_alg».proof.Proof.Gen.KernelIdeal.Launch
import proofs.«901099_g7700000000001100_dist_sum_ax1_xy_m1024_n512_v7x_xy2x2_bf16_1_alg».proof.Proof.Gen.KernelIdeal.Points
import proofs.«901099_g7700000000001100_dist_sum_ax1_xy_m1024_n512_v7x_xy2x2_bf16_1_alg».proof.Proof.ProtoA
import proofs.«901099_g7700000000001100_dist_sum_ax1_xy_m1024_n512_v7x_xy2x2_bf16_1_alg».proof.Proof.Slots
import Idealize.ShloMosaic.Lib.Pipeline.Launch
import Idealize.ShloMosaic.Lib.Pipeline.Kit
import Idealize.ShloMosaic.Lib.Pipeline.Value
import Idealize.ShloMosaic.Lib.Tactic

noncomputable section

namespace Cert.KernelIdeal.Proto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The schedule -/

/-- What the row mate's signal hands `c`: the row mate's slot 1, at any contents, and that the row mate has reached
    round 0 of its receive cell. -/
def barPay (c : Dev nD) : sProp 𝕄 := iprop((∃ f, slot1 (peer c) f) ∗ reached ER (recvCell (peer c)) 0)
/-- What the completed read of slot 0 hands back: slot 0, a load of which reads `c`'s partial sums. -/
def sendPay (c : Dev nD) : sProp 𝕄 := iprop(∃ f, ⌜rd0 f = part m c⌝ ∗ slot0 c f)
/-- What the completed write of slot 1 hands over: slot 1, a load of which reads the row mate's partial sums. -/
def recvPay (c : Dev nD) : sProp 𝕄 := iprop(∃ f, ⌜rd1 f = part m (peer c)⌝ ∗ slot1 c f)

abbrev IsRow (g : GSem nD τ sig) : Prop := g.1.2 = .tc ∧ (g.2 = .reg barS ∨ g.2 = .dma sendS.sem ∨ g.2 = .dma recvS.sem)

/-- One round, round 0, one duty a cell: a barrier cell's is one unit, a send or receive cell's the slot's credit. -/
def rowRd : Rounds.Schedule (GSem nD τ sig) Unit 𝕄 where
  duties g r := if r = 0 ∧ IsRow g then {()} else ∅
  unitless _ := False
  amount g _ _ := if g.2 = .reg barS then 1 else N
  payload g _ _ :=
    if g.2 = .reg barS then barPay g.1.1
    else if g.2 = .dma recvS.sem then recvPay m g.1.1
    else if g.2 = .dma sendS.sem then sendPay m g.1.1
    else iprop(emp)
  amount_pos g _ _ _ := by
    by_cases h : g.2 = .reg barS
    · rw [if_pos h]; exact Nat.one_pos
    · rw [if_neg h]; exact N_pos

instance rowRd_payload_storable (g : GSem nD τ sig) (r : ℕ) (d : Unit) : BI.Storable (upEmb : UEmb _ 𝕄) ((rowRd (F := F) m).payload g r d) := by
  show BI.Storable upEmb (if g.2 = .reg barS then barPay g.1.1 else if g.2 = .dma recvS.sem then recvPay m g.1.1
    else if g.2 = .dma sendS.sem then sendPay m g.1.1 else iprop(emp))
  unfold barPay recvPay sendPay
  (repeat' split) <;> infer_instance

section Sched
variable (c : Dev nD)

theorem send_ne_bar : (SemLoc.dma sendS.sem : SemLoc sig) ≠ .reg barS := fun h => by cases h
theorem recv_ne_bar : (SemLoc.dma recvS.sem : SemLoc sig) ≠ .reg barS := fun h => by cases h
theorem send_ne_recv : (SemLoc.dma sendS.sem : SemLoc sig) ≠ .dma recvS.sem := by decide
theorem recv_ne_send : (SemLoc.dma recvS.sem : SemLoc sig) ≠ .dma sendS.sem := by decide

theorem duties_bar : (rowRd (F := F) m).duties (barCell c) 0 = {()} := by dsimp only [rowRd]; exact if_pos ⟨rfl, rfl, .inl rfl⟩
theorem duties_send : (rowRd (F := F) m).duties (sendCell c) 0 = {()} := by dsimp only [rowRd]; exact if_pos ⟨rfl, rfl, .inr (.inl rfl)⟩
theorem duties_recv : (rowRd (F := F) m).duties (recvCell c) 0 = {()} := by dsimp only [rowRd]; exact if_pos ⟨rfl, rfl, .inr (.inr rfl)⟩
theorem duties_later (g : GSem nD τ sig) : ∀ r, 1 ≤ r → (rowRd (F := F) m).duties g r = ∅ :=
  fun r hr => by dsimp only [rowRd]; exact if_neg fun h => by omega

theorem amount_bar (u : Unit) : (rowRd (F := F) m).amount (barCell c) 0 u = 1 := by dsimp only [rowRd]; exact if_pos rfl
theorem amount_send (u : Unit) : (rowRd (F := F) m).amount (sendCell c) 0 u = N := by dsimp only [rowRd]; exact if_neg send_ne_bar
theorem amount_recv (u : Unit) : (rowRd (F := F) m).amount (recvCell c) 0 u = N := by dsimp only [rowRd]; exact if_neg recv_ne_bar

theorem expect_bar : (rowRd (F := F) m).expect (barCell c) 0 = 1 := by
  unfold Schedule.expect Schedule.amountOf; rw [duties_bar, Finset.sum_singleton, amount_bar]
theorem expect_send : (rowRd (F := F) m).expect (sendCell c) 0 = N := by
  unfold Schedule.expect Schedule.amountOf; rw [duties_send, Finset.sum_singleton, amount_send]
theorem expect_recv : (rowRd (F := F) m).expect (recvCell c) 0 = N := by
  unfold Schedule.expect Schedule.amountOf; rw [duties_recv, Finset.sum_singleton, amount_recv]

theorem payload_bar (u : Unit) : (rowRd (F := F) m).payload (barCell c) 0 u = barPay c := by dsimp only [rowRd]; exact if_pos rfl
theorem payload_send (u : Unit) : (rowRd (F := F) m).payload (sendCell c) 0 u = sendPay m c := by
  dsimp only [rowRd]; rw [if_neg send_ne_bar, if_neg send_ne_recv, if_pos rfl]
theorem payload_recv (u : Unit) : (rowRd (F := F) m).payload (recvCell c) 0 u = recvPay m c := by
  dsimp only [rowRd]; rw [if_neg recv_ne_bar, if_pos rfl]

theorem rest_bar : bigSep ((rowRd (F := F) m).duties (barCell c) 0 \ ∅) (fun u => (rowRd (F := F) m).payload (barCell c) 0 u) = barPay c := by
  rw [Finset.sdiff_empty, duties_bar, bigSep_singleton, payload_bar]
theorem rest_send : bigSep ((rowRd (F := F) m).duties (sendCell c) 0 \ ∅) (fun u => (rowRd (F := F) m).payload (sendCell c) 0 u) = sendPay m c := by
  rw [Finset.sdiff_empty, duties_send, bigSep_singleton, payload_send]
theorem rest_recv : bigSep ((rowRd (F := F) m).duties (recvCell c) 0 \ ∅) (fun u => (rowRd (F := F) m).payload (recvCell c) 0 u) = recvPay m c := by
  rw [Finset.sdiff_empty, duties_recv, bigSep_singleton, payload_recv]

end Sched

/-! ## What each device owes at launch; the levels -/

/-- Device `c` owes its row mate's receive cell the slot's credit and its row mate's barrier cell one unit (the signal,
    which comes first, peels the last summand). -/
def O₀ (c : Dev nD) : CellTallies nD τ sig Unit := tallyAt (recvCell (peer c)) () N + tallyAt (barCell (peer c)) () 1

def L (g : GSem nD τ sig) : Finset Unit := if g.1.2 = .tc then {()} else ∅
/-- Barrier cells at 1, receive cells at 2, everything else (staging, send) at 0. -/
def lv (g : GSem nD τ sig) (_ : Unit) : ℕ := if g.2 = .reg barS then 1 else if g.2 = .dma recvS.sem then 2 else 0

theorem L_of_ne (g : GSem nD τ sig) (h : g.1.2 ≠ .tc) : L g = ∅ := if_neg h
theorem L_tc (c : Dev nD) (sm : SemLoc sig) : L ((c : Thread nD τ), sm) = {()} := if_pos rfl

theorem O₀_pos {c : Dev nD} {g : GSem nD τ sig} {u : Unit} (h : 0 < O₀ c g u) :
    g = recvCell (peer c) ∨ g = barCell (peer c) := by
  unfold O₀ at h
  rw [Pi.add_apply, Finsupp.add_apply, tallyAt_apply, tallyAt_apply] at h
  by_contra hn
  rw [not_or] at hn
  rw [if_neg (fun h' => hn.1 h'.1), if_neg (fun h' => hn.2 h'.1)] at h
  exact Nat.lt_irrefl 0 h

omit [FloatOps F] in
/-- A wait on a staging or send cell (level 0) is below everything a device may owe. -/
theorem mayWait_stage (c : Dev nD) (q : DmaSem sig) (hq : SemLoc.dma q ≠ .dma recvS.sem) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with rfl | rfl <;> exact Finset.mem_singleton_self _)
      (fun p hp => by rw [Finset.mem_singleton.mp hp]; dsimp only [lv]; rw [if_neg (fun h => by cases h), if_neg hq])
      (fun g u hg => by
        rcases O₀_pos hg with rfl | rfl
        · dsimp only [lv]; rw [if_neg recv_ne_bar, if_pos rfl]; decide
        · dsimp only [lv]; rw [if_pos rfl]; decide)
  · rw [MayWait_zero]; iintro -; iempintro

omit [FloatOps F] in
/-- At its barrier wait a device owes its row mate's receive credit only: a receive cell, above its barrier cell. -/
theorem mayWait_bar (c : Dev nD) :
    (levAts L lv : sProp 𝕄) ⊢ MayWait (c : Thread nD τ) (.reg barS) () (tallyAt (recvCell (peer c)) () N) :=
  MayOwe.of_cut (L := L) (lev := lv) 1 (fun p hp => by rw [Finset.mem_singleton.mp hp, L_tc]; exact Finset.mem_singleton_self _)
    (fun g u hg => by
      rw [tallyAt_apply] at hg
      by_cases h : g = recvCell (peer c) ∧ u = ()
      · rw [h.1, L_tc]; exact Finset.mem_singleton_self _
      · rw [if_neg h] at hg; exact absurd hg (Nat.lt_irrefl 0))
    (fun p hp => by rw [Finset.mem_singleton.mp hp]; dsimp only [lv]; rw [if_pos rfl])
    (fun g u hg => by
      rw [tallyAt_apply] at hg
      by_cases h : g = recvCell (peer c) ∧ u = ()
      · rw [h.1]; dsimp only [lv]; rw [if_neg recv_ne_bar, if_pos rfl]; decide
      · rw [if_neg h] at hg; exact absurd hg (Nat.lt_irrefl 0))

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- The kernel's result on device `c`: its partial sums plus its row mate's, as a column. -/
def outAt (c : Dev nD) : (cc0_stg1_0 : Ref sig .tc).ty.Contents (Elt F) := k0_pay1 (part m c) (part m (peer c))

/-- The cells' invariants device `c`'s body opens, under the names `K` the launch allocated them at: its own three, its
    row mate's barrier cell (its signal) and receive cell (its transfer). -/
def invs (K : Dev nD × Fin 3 → ℕ) (c : Dev nD) : sProp 𝕄 :=
  iprop(cellInv ER (rowRd m) (K (c, 0)) (barCell c) ∗ cellInv ER (rowRd m) (K (c, 1)) (sendCell c) ∗ cellInv ER (rowRd m) (K (c, 2)) (recvCell c)
    ∗ cellInv ER (rowRd m) (K (peer c, 0)) (barCell (peer c)) ∗ cellInv ER (rowRd m) (K (peer c, 2)) (recvCell (peer c)))

instance invs_persistent (K : Dev nD × Fin 3 → ℕ) (c : Dev nD) : BI.Persistent (invs m K c) := by unfold invs; infer_instance

/-- The protocol's ghost state device `c` starts from: the invariants; its positions at round 0 of its three cells; the
    reached-marks of the cells it pays and of its own send and receive cells; the three duty tokens it pays with — its
    row mate's barrier duty, its row mate's receive duty, its own send duty. -/
def ghost (K : Dev nD × Fin 3 → ℕ) (c : Dev nD) : sProp 𝕄 :=
  iprop(invs m K c
    ∗ atPos ER (barCell c) 0 ∅ 0 ∗ atPos ER (sendCell c) 0 ∅ 0 ∗ atPos ER (recvCell c) 0 ∅ 0
    ∗ reached ER (barCell (peer c)) 0 ∗ reached ER (recvCell (peer c)) 0 ∗ reached ER (sendCell c) 0 ∗ reached ER (recvCell c) 0
    ∗ dutyTok ER (barCell (peer c)) 0 () ∗ dutyTok ER (recvCell (peer c)) 0 () ∗ dutyTok ER (sendCell c) 0 ())

/-- What device `c`'s body starts from: that at some names, its two credit tokens (its barrier's unit, its receive
    cell's credit) and the level facts. -/
def start (c : Dev nD) : sProp 𝕄 :=
  iprop((∃ K, ghost m K c) ∗ cred (tallyAt (barCell c) () 1) ∗ cred (tallyAt (recvCell c) () N) ∗ levAts L lv)

/-- The scratch row, whole, at some contents. -/
def scrAny (c : Dev nD) : sProp 𝕄 := iprop(∃ f : Scr F, ((c : Thread nD τ).loc cc0_scratch0) ↦{fullShare} f)

def Φ₀ (c : Dev nD) : sProp 𝕄 := iprop(start m c ∗ scrAny c)
/-- After the point: the scratch row back whole, the two own cells at zero, closed. -/
def Φ₁ (c : Dev nD) : sProp 𝕄 := iprop(scrAny c ∗ semVal (sendCell c) 0 ∗ semVal (recvCell c) 0)

def dats (_ : Fin 1) (c : Dev nD) : Dat τ (Elt F) Unit ℕ UU ℕ cfg0 c where
  A w := m ((cfg0.win w).arr.view.loc (c : Thread nD τ))
  after w _ := match w with
    | ⟨0, _⟩ => xblk m c
    | ⟨1, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

abbrev 𝒱₀ : Variants := Variants.none

omit [FloatOps F] in
theorem bigSep_W (Φ : Fin cfg0.W → sProp 𝕄) : bigSep Finset.univ Φ = iprop(Φ (0 : Fin 2) ∗ Φ (1 : Fin 2)) := bigSep_W0 Φ

theorem fetch_0 (t : Fin cfg0.N) : (cfg0.win (0 : Fin 2)).fetch t = true := by rw [fin_N t]; rfl

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

end Cert.KernelIdeal.Proto

end
-- ==== Proof.Body.lean ====
/-
# One device's body of the row exchange, and the body obligation

The body runs, in program order: the signal to the row mate's barrier cell, the wait on its own, the block's row sums
stored into slot 0, the transfer of slot 0 into the row mate's slot 1, the waits on the send and the receive cell, and
the sum of the two slots stored as the result's column. Between the signal and the receive wait the device holds only
slot 0 of its scratch row: slot 1 is with the row mate, whose transfer writes it.
-/
import proofs.«901099_g7700000000001100_dist_sum_ax1_xy_m1024_n512_v7x_xy2x2_bf16_1_alg».proof.Proof.Gen.KernelIdeal
import proofs.«901099_g7700000000001100_dist_sum_ax1_xy_m1024_n512_v7x_xy2x2_bf16_1_alg».proof.Proof.Gen.KernelIdeal.Skeleton
import proofs.«901099_g7700000000001100_dist_sum_ax1_xy_m1024_n512_v7x_xy2x2_bf16_1_alg».proof.Proof.Gen.KernelIdeal.Launch
import proofs.«901099_g7700000000001100_dist_sum_ax1_xy_m1024_n512_v7x_xy2x2_bf16_1_alg».proof.Proof.Gen.KernelIdeal.Points
import proofs.«901099_g7700000000001100_dist_sum_ax1_xy_m1024_n512_v7x_xy2x2_bf16_1_alg».proof.Proof.ProtoB
import Idealize.ShloMosaic.Lib.Pipeline.Launch
import Idealize.ShloMosaic.Lib.Pipeline.Kit
import Idealize.ShloMosaic.Lib.Pipeline.Value
import Idealize.ShloMosaic.Lib.Tactic

noncomputable section

namespace Cert.KernelIdeal.Proto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section Body

variable (K : Dev nD × Fin 3 → ℕ)

abbrev rx : Rect S1024x512 := Rect.unit (s := S1024x512) ![0, 0] S1024x512.size inb_S1024x512_S1024x512_0_0
abbrev ro : Rect S1024x1 := Rect.unit (s := S1024x1) ![0, 0] S1024x1.size inb_S1024x1_S1024x1_0_0

omit [FloatOps F] in
theorem hz2 : (![0, 0] : Fin 2 → Nat) = fun _ => 0 := funext fun a => by fin_cases a <;> rfl
omit [FloatOps F] in
theorem read_x (f : (cc0_stg0_0 : Ref sig .tc).ty.Contents (Elt F)) : (xM : Memref sig .tc .vmem S1024x512 .f32).view.readAt (Elt F) rx.toLoadRect f = f :=
  Memref.readAt_unit_zero (Elt F) cc0_stg0_0 hz2 _ f
omit [FloatOps F] in
theorem write_out (f w : (cc0_stg1_0 : Ref sig .tc).ty.Contents (Elt F)) :
    ((oM : Memref sig .tc .vmem S1024x1 .f32).access ro : View sig .tc _ _ _).write (Elt F) f w Finset.univ = w :=
  Memref.write_access_unit_zero_univ (Elt F) cc0_stg1_0 hz2 _ f w

/-- The transfer of slot 0 into the row mate's slot 1, at the protocol's cells: the source comes back holding the partial
    sums it held, the destination is handed over holding them too, whatever it held before. -/
theorem wp_send_row (c n : Dev nD) (hn : n = peer c) {hsc : (sl1 : Memref sig (Dev.tc n : Thread nD τ).2.kind .vmem S1x1024 .f32).view.ref.isScScratch = false}
    {hsrc : (sl0 : Memref sig .tc .vmem S1x1024 .f32).view.WordExact} {hdst : (sl1 : Memref sig .tc .vmem S1x1024 .f32).view.WordExact}
    {hsem : DmaTarget.Typed .vmem (.dma recvS.sem) (.remote (Dev.tc n : Thread nD τ) (sl1 : Memref sig .tc .vmem S1x1024 .f32) (.dma sendS.sem) hsc)}
    {α : Type} {Q : α → sProp 𝕄} {k : PUnit → Prog (TpuEff nD τ sig (Elt F) Λ₀ .tc) α}
    (fs : Scr F) (hfs : rd0 fs = part m c) (fn : Scr F) (W : Waits sig Unit) :
    iprop(cellInv ER (rowRd m) (K (c, 1)) (sendCell c) ∗ cellInv ER (rowRd m) (K (peer c, 2)) (recvCell (peer c))
        ∗ slot0 c fs ∗ slot1 (peer c) fn
        ∗ owes (c : Thread nD τ) (tallyAt (recvCell (peer c)) () N) W
        ∗ dutyTok ER (sendCell c) 0 () ∗ reached ER (sendCell c) 0
        ∗ dutyTok ER (recvCell (peer c)) 0 () ∗ reached ER (recvCell (peer c)) 0)
      ⊢ iprop(((cred (tallyAt (sendCell c) () N) ∗ owes (c : Thread nD τ) 0 W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma sl0 (.remote (Dev.tc n : Thread nD τ) sl1 (.dma sendS.sem) hsc) (.dma recvS.sem) hsrc hdst hsem) k) Q) := by
  subst hn
  unfold slot0 slot1
  exact Rounds.wp_send_pointsTo 𝒱₀ ER (rowRd m) (c : Thread nD τ) none (c' := (peer c : Thread nD τ)) (src := sl0) (dst := sl1) (q := fullShare) (κ₁ := K (c, 1)) (κ₂ := K (peer c, 2))
    (r₁ := 0) (r₂ := 0) (d₁ := ()) (d₂ := ()) (fs := fs) (fd := fn)
    (by rw [duties_send]; exact Finset.mem_singleton_self _) (by rw [duties_recv]; exact Finset.mem_singleton_self _)
    () () N rfl (amount_send m c ()) (amount_recv m (peer c) ()) 0 (by rw [zero_add]) (W := W)
    (by
      rw [payload_send]; unfold sendPay slot0
      iintro H; iexists fs
      isplitr; · ipureintro; exact hfs
      iexact H)
    (by
      rw [payload_recv]; unfold recvPay slot1
      iintro H; iexists ((sl1 : Memref sig .tc .vmem S1x1024 .f32).view.write (Elt F) fn ((sl0 : Memref sig .tc .vmem S1x1024 .f32).view.read (Elt F) fs) Finset.univ)
      isplitr
      · ipureintro; rw [landing, peer_peer]; exact hfs
      iexact H)

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop((ghost m K c ∗ cred (tallyAt (barCell c) () 1) ∗ cred (tallyAt (recvCell c) () N) ∗ levAts L lv ∗ scrAny c)
    ∗ (dats m 0 c).owesAt () t₀.castSucc
    ∗ (∃ d, stg c cc0_stg0_0 ((dats m 0 c).before (0 : Fin 2) t₀ d))
    ∗ (∃ d, stg c cc0_stg1_0 ((dats m 0 c).before (1 : Fin 2) t₀ d)))

def bodyPost (c : Dev nD) : sProp 𝕄 :=
  iprop(Φ₁ c ∗ (dats m 0 c).owesAt () t₀.succ ∗ stg c cc0_stg0_0 (xblk m c) ∗ stg c cc0_stg1_0 (outAt m c))

/-! The schedule's payloads written out as the ownership they are: a slot of a scratch row at some contents, beside what is known of them. -/
theorem payload_bar_own (c : Dev nD) (u : Unit) : (rowRd (F := F) m).payload (barCell c) 0 u
    = iprop((∃ f : Scr F, (sl1 : Memref sig .tc .vmem S1x1024 .f32).view.loc (peer c : Thread nD τ) ↦[(sl1 : Memref sig .tc .vmem S1x1024 .f32).view.set]{fullShare} f) ∗ reached ER (recvCell (peer c)) 0) := by
  rw [payload_bar]; rfl
theorem payload_send_own (c : Dev nD) (u : Unit) : (rowRd (F := F) m).payload (sendCell c) 0 u
    = iprop(∃ f : Scr F, ⌜rd0 f = part m c⌝ ∗ (sl0 : Memref sig .tc .vmem S1x1024 .f32).view.loc (c : Thread nD τ) ↦[(sl0 : Memref sig .tc .vmem S1x1024 .f32).view.set]{fullShare} f) := by
  rw [payload_send]; rfl
theorem payload_recv_own (c : Dev nD) (u : Unit) : (rowRd (F := F) m).payload (recvCell c) 0 u
    = iprop(∃ f : Scr F, ⌜rd1 f = part m (peer c)⌝ ∗ (sl1 : Memref sig .tc .vmem S1x1024 .f32).view.loc (c : Thread nD τ) ↦[(sl1 : Memref sig .tc .vmem S1x1024 .f32).view.set]{fullShare} f) := by
  rw [payload_recv]; rfl

omit [FloatOps F] in
theorem x_view (c : Dev nD) (f : (cc0_stg0_0 : Ref sig .tc).ty.Contents (Elt F)) :
    ((((c : Thread nD τ).loc cc0_stg0_0) ↦{fullShare} f) : sProp 𝕄)
      = ((xM : Memref sig .tc .vmem S1024x512 .f32).view.loc (c : Thread nD τ) ↦[(xM : Memref sig .tc .vmem S1024x512 .f32).view.set]{fullShare} f) := by
  rw [View.set_whole]
omit [FloatOps F] in
theorem o_view (c : Dev nD) (f : (cc0_stg1_0 : Ref sig .tc).ty.Contents (Elt F)) :
    ((((c : Thread nD τ).loc cc0_stg1_0) ↦{fullShare} f) : sProp 𝕄)
      = ((oM : Memref sig .tc .vmem S1024x1 .f32).view.loc (c : Thread nD τ) ↦[(oM : Memref sig .tc .vmem S1024x1 .f32).view.set]{fullShare} f) := by
  rw [View.set_whole]

attribute [local sl_rounds] duties_bar duties_send duties_recv amount_bar amount_send amount_recv
  payload_bar_own payload_send_own payload_recv_own expect_bar expect_send expect_recv
attribute [local sl_canon] dev1_eq dev2_eq

set_option maxHeartbeats 1600000 in
/-- One device's body, in program order. The signal and the transfer are handed over rule by rule (the signal gives away
    this device's slot 1, the transfer pays both its own send duty and the row mate's receive duty); the waits and the
    loads and stores between them are stepped from what the device then holds. -/
theorem sound_body (c : Dev nD) (Kt : PUnit → sProp 𝕄) :
    iprop(bodyPre m K c ∗ (bodyPost m c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) cc0_scratch1 cc0_scratch2) Kt := by
  simp only [cc0_body_eq_skeleton]; unfold cc0_body_skel
  simp only [k0_part1_eq_skeleton]; unfold k0_part1_skel
  simp only [semSignalWord, semWaitWord, Prog.lift, Prog.bind_op, Prog.bind_ret, Prog.pure_eq_ret, wp_deviceId]
  unfold bodyPre ghost invs scrAny
  iintro ⟨⟨⟨⟨⟨#HIbar, #HIsnd, #HIrcv, #HIbarP, #HIrcvP⟩, HatB, HatS, HatV, #HrBP, #HrVP, #HrS, #HrV, HtBP, HtVP, HtS⟩, HcB, HcV, #Hlev, ⟨%f0, Hscr⟩⟩,
    Ho, ⟨%d0, %g0, %hg0, Hx⟩, ⟨%d1, %g1, %hg1, Hout⟩⟩, Hk⟩
  have hx : g0 = xblk m c := by rw [hg0]; unfold Dat.before; rw [if_pos (fetch_0 t₀)]; rfl
  subst hx
  unfold Dat.owesAt Pipeline.owesWithin
  icases Ho with ⟨%W, %hW, HO⟩
  rw [show (dats m 0 c).owed t₀.castSucc = O₀ c from rfl]
  unfold O₀
  simp only [dev1_eq c]
  ihave Hs := (scr_split (F := F) c f0) $$ Hscr
  icases Hs with ⟨Hs0, Hs1⟩
  -- the signal to the row mate's barrier cell: with it go this device's slot 1 and that it is at round 0 of its receive cell
  iapply (Rounds.wp_signal 𝒱₀ ER (rowRd m) (c : Thread nD τ) none (dst := (peer c : Thread nD τ)) (κ := K (peer c, 0))
      (d := ()) (by rw [duties_bar]; exact Finset.mem_singleton_self _) ((amount_bar m (peer c) ()).trans (by decide)) () (tallyAt (recvCell (peer c)) () N) rfl)
    $$ [HO HtBP Hs1]
  · isplitr; · iexact HIbarP
    isplitl [HO]; · iexact HO
    isplitl [HtBP]; · iexact HtBP
    isplitl [Hs1]
    · rw [payload_bar]; unfold barPay; rw [peer_peer]
      isplitl [Hs1]; · iexists f0; iexact Hs1
      iexact HrV
    · iexact HrBP
  iintro HO
  ihave Hx' := (Entails.of_eq (x_view (F := F) c (xblk m c))) $$ Hx
  ihave Hout' := (Entails.of_eq (o_view (F := F) c g1)) $$ Hout
  unfold slot0
  have hmw := mayWait_bar (F := F) c
  sl_exec
  sl_unfold_words
  -- the transfer of slot 0 into the row mate's slot 1
  iapply (wp_send_row m K c _ (dev2_eq c) _ (show rd0 _ = part m c from (rd0_store f0 _).trans (congrArg k0_pay2 (read_x _))) HatB_pay1_v _) $$ [Hs0 HatB_pay1 HO HtS HtVP]
  · isplitr; · iexact HIsnd
    isplitr; · iexact HIrcvP
    isplitl [Hs0]; · unfold slot0; iexact Hs0
    isplitl [HatB_pay1]; · unfold slot1; iexact HatB_pay1
    isplitl [HO]; · iexact HO
    isplitl [HtS]; · iexact HtS
    isplitr; · iexact HrS
    isplitl [HtVP]; · iexact HtVP
    iexact HrVP
  iintro ⟨HcS, HO⟩
  sl_exec
  icases HatS_pay1 with ⟨%hfa, Hs0⟩
  icases HatV_pay1 with ⟨%hfb, Hs1⟩
  -- the two own cells close: their counters at zero are the device's again
  imod (Rounds.cell_close ER (rowRd m) (Set.mem_univ (K (c, 1))) (fun h => h) (R := 0 + 1) (duties_later m (sendCell c))) $$ [HatS] with HzS
  · isplitr; · iexact HIsnd
    iexact HatS
  imod (Rounds.cell_close ER (rowRd m) (Set.mem_univ (K (c, 2))) (fun h => h) (R := 0 + 1) (duties_later m (recvCell c))) $$ [HatV] with HzV
  · isplitr; · iexact HIrcv
    iexact HatV
  sl_exec
  sl_unfold_words
  rw [View.writes_singleton, write_out, wp_ret]; imodintro
  iapply Hk
  unfold bodyPost Φ₁ scrAny Dat.owesAt Pipeline.owesWithin
  rw [show (dats m 0 c).owed t₀.succ = 0 from rfl]
  isplitl [Hs0 Hs1 HzS HzV]
  · isplitl [Hs0 Hs1]
    · iapply (scr_join (F := F) c HatS_pay1_v HatV_pay1_v)
      unfold slot0 slot1
      isplitl [Hs0] <;> iassumption
    isplitl [HzS]; · iexact HzS
    iexact HzV
  isplitl [HO]
  · iexists (insert (SemLoc.dma recvS.sem, ()) (insert (SemLoc.dma sendS.sem, ()) (insert (SemLoc.reg barS, ()) W)))
    isplitr; · ipureintro; exact fun _ _ => Or.inl trivial
    iexact HO
  isplitl [Hx']
  · iexists _; isplitr; · (ipureintro; rfl)
    iapply (Entails.of_eq (x_view (F := F) c (xblk m c)).symm); iexact Hx'
  iexists _; isplitr; · (ipureintro; rfl)
  iapply (Entails.of_eq (o_view (F := F) c (outAt m c)).symm); iexact Hout'

set_option maxRecDepth 4000 in
def bodyPre' (c : Dev nD) : sProp 𝕄 :=
  iprop(Φ₀ m c ∗ (dats m 0 c).owesAt () t₀.castSucc
    ∗ (∃ d, stg c cc0_stg0_0 ((dats m 0 c).before (0 : Fin 2) t₀ d))
    ∗ (∃ d, stg c cc0_stg1_0 ((dats m 0 c).before (1 : Fin 2) t₀ d)))

end Body

set_option maxRecDepth 4000 in
/-- The body obligation on device `c`. -/
theorem body_obligation (c : Dev nD) : BodyObligation (dats (F := F) m 0 c) (defs₀ (F := F)) 𝒱₀ () Set.univ := fun t => by
  rw [fin_N t]
  rw [bigSep_W, bigSep_W]
  simp only [owns_whole_eq]
  show bodyPre' m c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) cc0_scratch1 cc0_scratch2) (fun _ => bodyPost m c)
  unfold bodyPre' Φ₀ start
  iintro ⟨⟨⟨⟨%K, Hg⟩, Hrest⟩, Hscr⟩, Ho, Hx, Hout⟩
  iapply (sound_body m K c fun _ => bodyPost m c)
  unfold bodyPre
  isplitr []
  · isplitl [Hg Hrest Hscr]
    · isplitl [Hg]; · iexact Hg
      icases Hrest with ⟨H1, H2, H3⟩
      isplitl [H1]; · iexact H1
      isplitl [H2]; · iexact H2
      isplitl [H3]; · iexact H3
      iexact Hscr
    isplitl [Ho]; · iexact Ho
    isplitl [Hx] <;> iassumption
  · iintro H; iexact H

end Cert.KernelIdeal.Proto

end
-- ==== Proof.Launch.lean ====
/-
# The launch of the row exchange on the four devices

The barrier semaphore is the runtime's, not scoped to the launch: its counter at zero arrives among the unscoped
semaphores, and its cell's invariant is shared by the two devices of a row, so all twelve cells are allocated for all
devices at once. Each device is dealt the tokens of the duties IT pays: its row mate's barrier and receive duties (dealt
across the row by the swap, a permutation of the devices) and its own send duty.
-/
import proofs.«901099_g7700000000001100_dist_sum_ax1_xy_m1024_n512_v7x_xy2x2_bf16_1_alg».proof.Proof.Gen.KernelIdeal
import proofs.«901099_g7700000000001100_dist_sum_ax1_xy_m1024_n512_v7x_xy2x2_bf16_1_alg».proof.Proof.Gen.KernelIdeal.Skeleton
import proofs.«901099_g7700000000001100_dist_sum_ax1_xy_m1024_n512_v7x_xy2x2_bf16_1_alg».proof.Proof.Gen.KernelIdeal.Launch
import proofs.«901099_g7700000000001100_dist_sum_ax1_xy_m1024_n512_v7x_xy2x2_bf16_1_alg».proof.Proof.Gen.KernelIdeal.Points
import proofs.«901099_g7700000000001100_dist_sum_ax1_xy_m1024_n512_v7x_xy2x2_bf16_1_alg».proof.Proof.ProtoB
import proofs.«901099_g7700000000001100_dist_sum_ax1_xy_m1024_n512_v7x_xy2x2_bf16_1_alg».proof.Proof.Body
import Idealize.ShloMosaic.Lib.Pipeline.Launch
import Idealize.ShloMosaic.Lib.Pipeline.Kit
import Idealize.ShloMosaic.Lib.Pipeline.Value
import Idealize.ShloMosaic.Lib.Tactic

noncomputable section

namespace Cert.KernelIdeal.Proto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem ownSemFacts : Pipeline.OwnSemFacts cfg0.spec osem := by decide

theorem share_eq (c : Dev nD) (w : Fin cfg0.W) : (dats m 0 c).share w = fullShare := by unfold Dat.share; split <;> rfl

theorem kcell_injective : Function.Injective (kcell : Dev nD × Fin 3 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := by fin_cases k <;> fin_cases k' <;> first | rfl | exact absurd h2 (by decide)
  subst this; rfl
def rowCells : Finset (GSem nD τ sig) := Finset.univ.map ⟨kcell, kcell_injective⟩
def rowToks : Finset (GSem nD τ sig × ℕ × Unit) :=
  Finset.univ.map ⟨fun ck : Dev nD × Fin 3 => (kcell ck, 0, ()), fun _ _ h => kcell_injective (congrArg Prod.fst h)⟩

def u₀ : UU := (initOf (Pipeline.cells cfgs cellOf_inj) (Pipeline.launchToks cfgs cellOf_inj), initOf rowCells rowToks)

/-- The duty tokens of device `c`'s own cells. -/
def toks (c : Dev nD) : sProp 𝕄 := iprop(dutyTok ER (barCell c) 0 () ∗ dutyTok ER (sendCell c) 0 () ∗ dutyTok ER (recvCell c) 0 ())

/-- What the launch element deals device `c`. -/
def G (c : Dev nD) : sProp 𝕄 :=
  iprop((bigSep Finset.univ fun k : Fin 3 => roundState ER (rowRd m) (kcell (c, k)) 0)
    ∗ (bigSep Finset.univ fun k : Fin 3 => iprop(atPos ER (kcell (c, k)) 0 ∅ 0 ∗ reached ER (kcell (c, k)) 0)) ∗ toks c)

/-- What the global step makes of it. -/
def G' (c : Dev nD) : sProp 𝕄 := iprop(∃ K, ghost m K c)

omit [FloatOps F] in
theorem bigSep_fin3 (Φ : Fin 3 → sProp 𝕄) : bigSep Finset.univ Φ = iprop(Φ 0 ∗ Φ 1 ∗ Φ 2) := bigSep_univ_eq_bigSepL [0, 1, 2] (by decide) (by decide) Φ

theorem fund_row : BI.own (ER (initOf rowCells rowToks)) ⊢ (|==> bigSep Finset.univ (G m) : sProp 𝕄) := by
  have hX (Φ : GSem nD τ sig → sProp 𝕄) : bigSep rowCells Φ = bigSep Finset.univ fun c : Dev nD => bigSep Finset.univ fun k : Fin 3 => Φ (kcell (c, k)) := by
    unfold rowCells; rw [bigSep_map, bigSep_univ_prod]; rfl
  have hT : bigSep rowToks (fun x => (dutyTok ER x.1 x.2.1 x.2.2 : sProp 𝕄)) = bigSep Finset.univ fun c : Dev nD => toks c := by
    unfold rowToks; rw [bigSep_map, bigSep_univ_prod]
    exact bigSep_congr fun c _ => by unfold toks; rw [bigSep_fin3]; rfl
  iintro HX
  imod (Rounds.fund ER (rowRd m) rowCells rowToks) $$ HX with ⟨Hst, Hr, Hat, Htok⟩
  imodintro
  ihave Hst' := (Entails.of_eq (hX fun g => roundState ER (rowRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- The send and receive semaphores are the kernel's own two; -/
theorem ownSems0_eq (c : Dev nD) : (Pipeline.ownSems0 (Ix := Unit) (Name := ℕ) (U := UU) (Lvl := ℕ) (Val := Elt F) (τ := τ) osem c : sProp 𝕄)
    = iprop(semVal (sendCell c) 0 ∗ semVal (recvCell c) 0) := by
  rw [Pipeline.ownSems0_eq_of_list c osem [0, 1] (by decide) (by decide)]; rfl
omit [FloatOps F] in
/-- the barrier semaphore the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 3 => semVal (kcell (c, k)) 0 : sProp 𝕄) := by
  rw [ownSems0_eq, unscopedSems0_eq, bigSep_fin3]
  iintro ⟨⟨HS, HV⟩, HB⟩
  isplitl [HB]; · iexact HB
  isplitl [HS] <;> iassumption

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (rowRd m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 3 => semVal (kcell (c, k)) 0) ∗ bigSep Finset.univ fun k : Fin 3 => roundState ER (rowRd m) (kcell (c, k)) 0)
      ⊢ (|={Set.univ}=> bigSep Finset.univ fun k => iprop(∃ κ : ℕ, cellInv ER (rowRd m) κ (kcell (c, k))) : sProp 𝕄) from by
        rw [← bigSep_sep']
        exact (bigSep_mono fun k _ => (Rounds.body_intro ER (rowRd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

def records (K : Dev nD × Fin 3 → ℕ) : sProp 𝕄 :=
  iprop((bigSep Finset.univ fun ck : Dev nD × Fin 3 => cellInv ER (rowRd m) (K ck) (kcell ck))
    ∗ bigSep Finset.univ fun ck : Dev nD × Fin 3 => reached ER (kcell ck) 0)

instance records_persistent (K : Dev nD × Fin 3 → ℕ) : BI.Persistent (records m K) := by unfold records; infer_instance

theorem inv_at (K : Dev nD × Fin 3 → ℕ) (ck : Dev nD × Fin 3) :
    (bigSep Finset.univ fun ck : Dev nD × Fin 3 => (cellInv ER (rowRd m) (K ck) (kcell ck) : sProp 𝕄)) ⊢ cellInv ER (rowRd m) (K ck) (kcell ck) :=
  bigSep_elim (Finset.mem_univ ck)
omit [FloatOps F] in
theorem reached_at (ck : Dev nD × Fin 3) :
    (bigSep Finset.univ fun ck : Dev nD × Fin 3 => (reached ER (kcell ck) 0 : sProp 𝕄)) ⊢ reached ER (kcell ck) 0 :=
  bigSep_elim (Finset.mem_univ ck)

/-- What stays with device `c`: its positions, and the tokens of the duties IT pays. -/
def payToks (c : Dev nD) : sProp 𝕄 :=
  iprop(dutyTok ER (barCell (peer c)) 0 () ∗ dutyTok ER (recvCell (peer c)) 0 () ∗ dutyTok ER (sendCell c) 0 ())
def linear (c : Dev nD) : sProp 𝕄 :=
  iprop((atPos ER (barCell c) 0 ∅ 0 ∗ atPos ER (sendCell c) 0 ∅ 0 ∗ atPos ER (recvCell c) 0 ∅ 0) ∗ payToks c)

theorem ghost_intro (K : Dev nD × Fin 3 → ℕ) (c : Dev nD) : iprop(records m K ∗ linear c) ⊢ G' m c := by
  unfold records linear payToks G' ghost invs
  iintro ⟨⟨#HI, #HR⟩, ⟨HaB, HaS, HaV⟩, HtBP, HtVP, HtS⟩
  iexists K
  isplitr
  · isplitr; · iapply (inv_at m K (c, 0)); iexact HI
    isplitr; · iapply (inv_at m K (c, 1)); iexact HI
    isplitr; · iapply (inv_at m K (c, 2)); iexact HI
    isplitr; · iapply (inv_at m K (peer c, 0)); iexact HI
    iapply (inv_at m K (peer c, 2)); iexact HI
  isplitl [HaB]; · iexact HaB
  isplitl [HaS]; · iexact HaS
  isplitl [HaV]; · iexact HaV
  isplitr; · iapply (reached_at (F := F) (peer c, 0)); iexact HR
  isplitr; · iapply (reached_at (F := F) (peer c, 2)); iexact HR
  isplitr; · iapply (reached_at (F := F) (c, 1)); iexact HR
  isplitr; · iapply (reached_at (F := F) (c, 2)); iexact HR
  isplitl [HtBP]; · iexact HtBP
  isplitl [HtVP]; · iexact HtVP
  iexact HtS

omit [FloatOps F] in
/-- The tokens dealt across each row: a barrier's and a receive cell's token to the row mate, the send cell's kept. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep',
    bigSep_univ_equiv swap (fun c : Dev nD => (dutyTok ER (barCell c) 0 () : sProp 𝕄)),
    bigSep_univ_equiv swap (fun c : Dev nD => (dutyTok ER (recvCell c) 0 () : sProp 𝕄))]
  iintro ⟨H1, H2, H3⟩
  isplitl [H1]; · iexact H1
  isplitl [H3]; · iexact H3
  iexact H2

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (rowRd m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 3 => iprop(∃ κ : ℕ, cellInv ER (rowRd m) κ (kcell ck))),
    bigSep_congr (s := Finset.univ) (fun (c : Dev nD) _ => bigSep_sep' Finset.univ (fun k : Fin 3 => (atPos ER (kcell (c, k)) 0 ∅ 0 : sProp 𝕄)) (fun k => reached ER (kcell (c, k)) 0)),
    bigSep_sep', ← bigSep_univ_prod (fun ck : Dev nD × Fin 3 => (reached ER (kcell ck) 0 : sProp 𝕄))]
  iintro ⟨HI, ⟨Hat, #HR⟩, Htok⟩
  ihave HK := (BI.bigSep_exists_pi Finset.univ (fun (ck : Dev nD × Fin 3) (κ : ℕ) => (cellInv ER (rowRd m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply ((Entails.of_eq (bigSep_sep' Finset.univ (fun c : Dev nD => bigSep Finset.univ fun k : Fin 3 => (atPos ER (kcell (c, k)) 0 ∅ 0 : sProp 𝕄)) payToks).symm).trans
      (bigSep_mono fun c _ => show _ ⊢ linear c from Entails.of_eq (by unfold linear; rw [bigSep_fin3])))
    isplitl [Hat]; · iexact Hat
    iexact Htk

/-- The global step: own AND unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ### The launch credit -/

omit [FloatOps F] in
theorem bar_eq_iff {a b : Dev nD} : Iff (barCell a = barCell b) (a = b) :=
  ⟨fun h => Fin.ext (congrArg (fun g : GSem nD τ sig => g.1.1.val) h), fun h => h ▸ rfl⟩
omit [FloatOps F] in
theorem recv_eq_iff {a b : Dev nD} : Iff (recvCell a = recvCell b) (a = b) :=
  ⟨fun h => Fin.ext (congrArg (fun g : GSem nD τ sig => g.1.1.val) h), fun h => h ▸ rfl⟩

omit [FloatOps F] in
/-- What device `d` owes device `c`'s barrier cell: a unit if `d` is `c`'s row mate. -/
theorem owed_bar (d c : Dev nD) : O₀ d (barCell c) () = if d = peer c then 1 else 0 := by
  unfold O₀
  rw [Pi.add_apply, Finsupp.add_apply, tallyAt_ne_cell (fun h => recv_ne_bar (congrArg Prod.snd h).symm),
    tallyAt_apply, Finsupp.zero_apply, Nat.zero_add]
  by_cases h : d = peer c
  · subst h; rw [peer_peer, if_pos ⟨rfl, rfl⟩, if_pos rfl]
  · rw [if_neg (fun ⟨h1, _⟩ => h (by rw [← peer_peer d]; exact congrArg peer (bar_eq_iff.mp h1).symm)), if_neg h]

omit [FloatOps F] in
theorem owed_recv (d c : Dev nD) : O₀ d (recvCell c) () = if d = peer c then N else 0 := by
  unfold O₀
  rw [Pi.add_apply, Finsupp.add_apply, tallyAt_apply,
    tallyAt_ne_cell (fun h => recv_ne_bar (congrArg Prod.snd h)), Finsupp.zero_apply, Nat.add_zero]
  by_cases h : d = peer c
  · subst h; rw [peer_peer, if_pos ⟨rfl, rfl⟩, if_pos rfl]
  · rw [if_neg (fun ⟨h1, _⟩ => h (by rw [← peer_peer d]; exact congrArg peer (recv_eq_iff.mp h1).symm)), if_neg h]

omit [FloatOps F] in
theorem launch_bar (c : Dev nD) :
    tallyOn (barCell c) (launchCredit (Pipeline.owing O₀) 0 (barCell c)) = (tallyAt (barCell c) () 1 : CellTallies nD τ sig Unit) := by
  unfold tallyAt; refine congrArg _ (Finsupp.ext fun u => ?_); cases u
  rw [Pipeline.launchCredit_owing, Finsupp.single_eq_same, Finset.sum_congr rfl fun d _ => owed_bar d c,
    Finset.sum_ite_eq' Finset.univ (peer c) fun _ => 1, if_pos (Finset.mem_univ _)]

omit [FloatOps F] in
theorem launch_recv (c : Dev nD) :
    tallyOn (recvCell c) (launchCredit (Pipeline.owing O₀) 0 (recvCell c)) = (tallyAt (recvCell c) () N : CellTallies nD τ sig Unit) := by
  unfold tallyAt; refine congrArg _ (Finsupp.ext fun u => ?_); cases u
  rw [Pipeline.launchCredit_owing, Finsupp.single_eq_same, Finset.sum_congr rfl fun d _ => owed_recv d c, Finset.sum_ite_eq' Finset.univ (peer c) fun _ => N,
    if_pos (Finset.mem_univ _)]

omit [FloatOps F] in
theorem creds (c : Dev nD) :
    (Pipeline.launchCred O₀ c : sProp 𝕄) ⊢ iprop(cred (tallyAt (barCell c) () 1) ∗ cred (tallyAt (recvCell c) () N)) := by
  unfold Pipeline.launchCred
  rw [bigSep_univ_at _ (SemLoc.reg barS), launch_bar]
  refine sep_mono_right ?_
  rw [← launch_recv]
  exact bigSep_elim (Finset.mem_erase.mpr ⟨recv_ne_bar, Finset.mem_univ _⟩)

/-! ### The launch theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scrAny
  iintro ⟨Hs, -, ⟨%f, Hr⟩⟩
  isplitl [Hs]; · iexact Hs
  iexists f; iexact Hr

theorem phi1_exit (c : Dev nD) :
    (dats m 0 c).Φ (Fin.last cfg0.N) ⊢ iprop(emp ∗ Pipeline.ownSems0 osem c ∗ Pipeline.scopedRest cfg0.spec c) := by
  rw [show (dats m 0 c).Φ (Fin.last cfg0.N) = Φ₁ c from rfl, scopedRest0_eq, ownSems0_eq]
  unfold Φ₁ scrAny
  iintro ⟨⟨%f, Hr⟩, HzS, HzV⟩
  isplitr; · iempintro
  isplitl [HzS HzV]
  · isplitl [HzS] <;> iassumption
  iexists f; iexact Hr

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-! ### The run -/

def finalA (c : Dev nD) (w : Fin cfg0.W) : Buf (Elt F) ((cfg0.win w).arr.view.loc (c : Thread nD τ)) := (dats m 0 c).arrAt w cfg0.N

def QC : PUnit × MemSt nD τ sig (Elt F) → Prop := fun r =>
  ∀ c : Dev nD, ∀ w : Fin cfg0.W, r.2.mem ((cfg0.win w).arr.view.loc (c : Thread nD τ)) = finalA m c w

set_option maxRecDepth 8000 in
/-- At the compiled mesh of four devices, for any float values, from any memory with zero counters: every weakly fair
    execution of @main — the two devices of each row shaking hands on the barrier semaphore, then exchanging their partial
    row sums — terminates, and every final state has each device's result array at the computed contents and `x` unchanged. -/
theorem run_main : θ_run defs (onTc (τ := τ) (main (F := F))) ⟨m, fun _ => 0, ρ⟩ (QC m) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_row m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m) (hout := phi1_exit m)
    (QY := fun _ _ => True)
    (hY := fun c s' => by
      iintro ⟨-, -, HSI⟩
      imodintro
      isplitr; · ipureintro; trivial
      iexact HSI)
    (hQ := fun _ h c w => (h c).1 w)

/-- info: 'Cert.KernelIdeal.Proto.run_main' depends on axioms: [propext, Classical.choice, Quot.sound] -/
#guard_msgs in #print axioms run_main

/-- The `x` array after the run holds what it held. -/
theorem finalA_x (c : Dev nD) : finalA m c (0 : Fin 2) = m (win0_0.arr.view.loc (c : Thread nD τ)) :=
  (dats (F := F) m 0 c).arrAt_in (0 : Fin 2) rfl _

end Cert.KernelIdeal.Proto

end
-- ==== Proof.Bits.ProtoA.lean ====
/-
# Row sums across a row of the 2 × 2 mesh: the protocol

Device `c = (i, j)` holds the block of `x` at rows `[1024 i, 1024 i + 1024)`, columns `[512 j, 512 j + 512)`.
It sums its block along the columns into slot 0 of a two-slot scratch row, sends that slot into slot 1 of its
row mate's scratch (the device `(i, 1 - j)`), and adds the two slots: every device of a row ends with the
row sums over all 1024 columns.

The protocol, in the rounds discipline: three cells a device, one duty each, all at round 0.
* the barrier cell: paid by the row mate's signal; it hands over the row mate's slot 1 (any contents) and the
  fact that the row mate has reached round 0 of its receive cell — what a transfer into that slot needs;
* the send cell: paid by the device's own transfer once slot 0 is read; it hands slot 0 back, still holding the
  device's partial sums;
* the receive cell: paid by the row mate's transfer once slot 1 is written; it hands slot 1 back, holding the row
  mate's partial sums.
A device owes its row mate's barrier cell one unit and its receive cell the slot's credit; it waits on its own
barrier cell (level 1) owing only a receive cell (level 2), and on its send and receive cells owing nothing.
-/
import proofs.«901099_g7700000000001100_dist_sum_ax1_xy_m1024_n512_v7x_xy2x2_bf16_1_alg».proof.Proof.Gen.Kernel
import proofs.«901099_g7700000000001100_dist_sum_ax1_xy_m1024_n512_v7x_xy2x2_bf16_1_alg».proof.Proof.Gen.Kernel.Skeleton
import proofs.«901099_g7700000000001100_dist_sum_ax1_xy_m1024_n512_v7x_xy2x2_bf16_1_alg».proof.Proof.Gen.Kernel.Launch
import proofs.«901099_g7700000000001100_dist_sum_ax1_xy_m1024_n512_v7x_xy2x2_bf16_1_alg».proof.Proof.Gen.Kernel.Points
import Idealize.ShloMosaic.Lib.Pipeline.Launch
import Idealize.ShloMosaic.Lib.Pipeline.Kit
import Idealize.ShloMosaic.Lib.Pipeline.Value
import Idealize.ShloMosaic.Lib.Tactic

noncomputable section

namespace Cert.Kernel.Proto

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy and the protocol's, duties `Unit` -/

abbrev UU : Type := UR sig nD τ × UR sig nD τ

local notation "𝕄" => MT nD τ sig Unit (Elt F) ℕ UU ℕ

abbrev EP : Emb (UR sig nD τ) (MT nD τ sig Unit (Elt F) ℕ UU ℕ) := embL
abbrev ER : Emb (UR sig nD τ) (MT nD τ sig Unit (Elt F) ℕ UU ℕ) := embR

variable (m : (ℓ : Loc nD τ sig) → Buf (Elt F) ℓ) (ρ : Dev nD → PrngReg)

/-! ## The row mate -/

/-- Device `c = 2 i + j` swaps with `2 i + (1 - j)`. -/
def peer (c : Dev nD) : Dev nD := ⟨(2 * (c.val / 2) + 1) - (c.val % 2), by have h : c.val < 4 := c.isLt; show _ < 4; omega⟩

theorem peer_peer (c : Dev nD) : peer (peer c) = c := by revert c; decide
theorem peer_ne (c : Dev nD) : peer c ≠ c := by revert c; decide

/-- Both `device_id` chains of the kernel (the signal's, the transfer's) name the row mate. -/
theorem dev1_eq (c : Dev nD) : (⟨k0_dev1 c, k0_dev1_lt c⟩ : Dev nD) = peer c := Fin.ext (k0_dev1_eq c)
theorem dev2_eq (c : Dev nD) : (⟨k0_dev2 c, k0_dev2_lt c⟩ : Dev nD) = peer c := Fin.ext (k0_dev2_eq c)

/-- The swap as a permutation of the devices. -/
def swap : Dev nD ≃ Dev nD := ⟨peer, peer, peer_peer, peer_peer⟩

/-! ## The memrefs, the two slots of the scratch row, the cells -/

abbrev xM : Memref sig .tc .vmem S1024x512 .f32 := Memref.whole cc0_stg0_0
abbrev oM : Memref sig .tc .vmem S1024x1 .f32 := Memref.whole cc0_stg1_0
abbrev scr : Memref sig .tc .vmem S2x1x1024 .f32 := Memref.whole cc0_scratch0

abbrev rect0 : Rect S2x1x1024 := Rect.unit (s := S2x1x1024) ![0, 0, 0] S1x1x1024.size inb_S2x1x1024_S1x1x1024_0_0_0
abbrev rect1 : Rect S2x1x1024 := Rect.unit (s := S2x1x1024) ![1, 0, 0] S1x1x1024.size inb_S2x1x1024_S1x1x1024_1_0_0

/-- Slot 0 and slot 1 as the transfer names them: the slice, squeezed to a row. -/
abbrev sl0 : Memref sig .tc .vmem S1x1024 .f32 := (scr.slice rect0 (fun _ => rfl)).squeeze S1x1024 squeezes_S1x1x1024_S1x1024
abbrev sl1 : Memref sig .tc .vmem S1x1024 .f32 := (scr.slice rect1 (fun _ => rfl)).squeeze S1x1024 squeezes_S1x1x1024_S1x1024

abbrev barS : Sem sig := (SemArray.scalar (sig.barrier 0 rfl) : Sems sig S_).sem
abbrev sendS : DmaSems sig S_ := cc0_scratch1
abbrev recvS : DmaSems sig S_ := cc0_scratch2

abbrev barCell (c : Dev nD) : GSem nD τ sig := ((c : Thread nD τ), .reg barS)
abbrev sendCell (c : Dev nD) : GSem nD τ sig := ((c : Thread nD τ), .dma sendS.sem)
abbrev recvCell (c : Dev nD) : GSem nD τ sig := ((c : Thread nD τ), .dma recvS.sem)

/-- The kernel's own (scoped) semaphores: send, receive; -/
abbrev osem : Fin 2 → SemLoc sig := fun | 0 => .dma sendS.sem | 1 => .dma recvS.sem
/-- all three of the protocol's: barrier, send, receive. -/
abbrev csem : Fin 3 → SemLoc sig := fun | 0 => .reg barS | 1 => .dma sendS.sem | 2 => .dma recvS.sem
abbrev kcell (ck : Dev nD × Fin 3) : GSem nD τ sig := ((ck.1 : Thread nD τ), csem ck.2)

abbrev N : ℕ := (sl1 : Memref sig .tc .vmem S1x1024 .f32).view.dmaCredit
theorem N_pos : 0 < N := View.dmaCredit_pos _ (by decide)

/-! ## Contents -/

abbrev Scr (F : FTy → Type) : Type := (cc0_scratch0 : Ref sig .tc).ty.Contents (Elt F)

/-- Device `c`'s block of `x`, as staged. -/
def xblk (c : Dev nD) : (cc0_stg0_0 : Ref sig .tc).ty.Contents (Elt F) :=
  (win0_0.blk (0 : Fin 1)).view.read (Elt F) (m ((c : Thread nD τ).loc main_arg0))

/-- Device `c`'s partial row sums: its block summed along its 512 columns. -/
def part (c : Dev nD) : Vec F S1x1x1024 .f32 := k0_pay2 (xblk m c)

/-- What a load of slot 0, of slot 1, reads off the scratch row's contents. -/
abbrev rd0 (f : Scr F) : Vec F S1x1x1024 .f32 := (scr : Memref sig .tc .vmem S2x1x1024 .f32).view.readAt (Elt F) rect0.toLoadRect f
abbrev rd1 (f : Scr F) : Vec F S1x1x1024 .f32 := (scr : Memref sig .tc .vmem S2x1x1024 .f32).view.readAt (Elt F) rect1.toLoadRect f

/-- The elements of slot 0, of slot 1. -/
abbrev set0 : Finset S2x1x1024.Idx := (sl0 : Memref sig .tc .vmem S1x1024 .f32).view.set
abbrev set1 : Finset S2x1x1024.Idx := (sl1 : Memref sig .tc .vmem S1x1024 .f32).view.set

def slot0 (c : Dev nD) (f : Scr F) : sProp 𝕄 :=
  (sl0 : Memref sig .tc .vmem S1x1024 .f32).view.loc (c : Thread nD τ) ↦[(sl0 : Memref sig .tc .vmem S1x1024 .f32).view.set]{fullShare} f
def slot1 (c : Dev nD) (f : Scr F) : sProp 𝕄 :=
  (sl1 : Memref sig .tc .vmem S1x1024 .f32).view.loc (c : Thread nD τ) ↦[(sl1 : Memref sig .tc .vmem S1x1024 .f32).view.set]{fullShare} f

omit [FloatOps F] in
instance slot0_storable (c : Dev nD) (f : Scr F) : BI.Storable (upEmb : UEmb _ 𝕄) (slot0 (F := F) c f) := by unfold slot0; infer_instance
omit [FloatOps F] in
instance slot1_storable (c : Dev nD) (f : Scr F) : BI.Storable (upEmb : UEmb _ 𝕄) (slot1 (F := F) c f) := by unfold slot1; infer_instance

end Cert.Kernel.Proto

end
-- ==== Proof.Bits.Slots.lean ====
/-
# The two slots of the scratch row

The scratch row has shape 2 × 1 × 1024. Its elements with first coordinate 0 are slot 0, those with first coordinate 1
slot 1: the two are disjoint and cover the row, so the row's ownership splits into the two slots' and is put back from
them. A transfer from slot 0 of one row into slot 1 of another, through the views squeezed to 1 × 1024, leaves in slot 1
exactly what slot 0 held, element by element.
-/
import proofs.«901099_g7700000000001100_dist_sum_ax1_xy_m1024_n512_v7x_xy2x2_bf16_1_alg».proof.Proof.Gen.Kernel
import proofs.«901099_g7700000000001100_dist_sum_ax1_xy_m1024_n512_v7x_xy2x2_bf16_1_alg».proof.Proof.Gen.Kernel.Skeleton
import proofs.«901099_g7700000000001100_dist_sum_ax1_xy_m1024_n512_v7x_xy2x2_bf16_1_alg».proof.Proof.Gen.Kernel.Launch
import proofs.«901099_g7700000000001100_dist_sum_ax1_xy_m1024_n512_v7x_xy2x2_bf16_1_alg».proof.Proof.Gen.Kernel.Points
import proofs.«901099_g7700000000001100_dist_sum_ax1_xy_m1024_n512_v7x_xy2x2_bf16_1_alg».proof.Proof.Bits.ProtoA
import Idealize.ShloMosaic.Lib.Pipeline.Launch
import Idealize.ShloMosaic.Lib.Pipeline.Kit
import Idealize.ShloMosaic.Lib.Pipeline.Value
import Idealize.ShloMosaic.Lib.Tactic

noncomputable section

namespace Cert.Kernel.Proto

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

theorem set0_eq : set0 = rect0.set :=
  (View.set_reshape _ _).trans ((View.set_slice _ rect0).trans (Finset.map_refl))
theorem set1_eq : set1 = rect1.set :=
  (View.set_reshape _ _).trans ((View.set_slice _ rect1).trans (Finset.map_refl))

theorem mem_set0 (i : S2x1x1024.Idx) : Iff (i ∈ set0) ((i 0).val = 0) := by
  have h1 : (i 1).val < 1 := (i 1).isLt
  have h2 : (i 2).val < 1024 := (i 2).isLt
  rw [set0_eq, Rect.mem_set_unit]
  constructor
  · intro h; have := h 0; simp at this; omega
  · intro h a; fin_cases a <;> simp <;> omega
theorem mem_set1 (i : S2x1x1024.Idx) : Iff (i ∈ set1) ((i 0).val = 1) := by
  have h1 : (i 1).val < 1 := (i 1).isLt
  have h2 : (i 2).val < 1024 := (i 2).isLt
  rw [set1_eq, Rect.mem_set_unit]
  constructor
  · intro h; have := h 0; simp at this; omega
  · intro h a; fin_cases a <;> simp <;> omega

theorem sets_disjoint : Disjoint set0 set1 :=
  Finset.disjoint_left.mpr fun i h0 h1 => by rw [mem_set0] at h0; rw [mem_set1] at h1; omega
theorem sets_cover : set0 ∪ set1 = Finset.univ := by
  ext i; simp only [Finset.mem_union, Finset.mem_univ, iff_true, mem_set0, mem_set1]
  have : (i 0).val < 2 := (i 0).isLt
  omega

/-- The elements a store or a load at slot 0 (slot 1) touches are the slot's. -/
theorem acc0_set : ((scr : Memref sig .tc .vmem S2x1x1024 .f32).access rect0).set = set0 := (View.set_reshape _ _).symm
theorem acc1_set : ((scr : Memref sig .tc .vmem S2x1x1024 .f32).access rect1).set = set1 := (View.set_reshape _ _).symm

omit [FloatOps F] in
/-- A load of slot 0 after a store of the whole slot reads what was stored. -/
theorem rd0_store (f : Scr F) (w : Vec F S1x1x1024 .f32) :
    rd0 (((scr : Memref sig .tc .vmem S2x1x1024 .f32).access rect0).write (Elt F) f w Finset.univ) = w :=
  View.read_write_univ (v := (scr : Memref sig .tc .vmem S2x1x1024 .f32).access rect0) f w

omit [FloatOps F] in
/-- What lands in slot 1 through the squeezed views is what slot 0 of the source held, whatever slot 1 held before. -/
theorem landing (fd fs : Scr F) :
    rd1 ((sl1 : Memref sig .tc .vmem S1x1024 .f32).view.write (Elt F) fd ((sl0 : Memref sig .tc .vmem S1x1024 .f32).view.read (Elt F) fs) Finset.univ) = rd0 fs := by
  funext y
  show ((scr : Memref sig .tc .vmem S2x1x1024 .f32).view.slice rect1).read (Elt F) _ y = ((scr : Memref sig .tc .vmem S2x1x1024 .f32).view.slice rect0).read (Elt F) fs y
  have e1 : ((scr : Memref sig .tc .vmem S2x1x1024 .f32).view.slice rect1).emb y
      = (sl1 : Memref sig .tc .vmem S1x1024 .f32).view.emb ((Shape.reshapeEquiv squeezes_S1x1x1024_S1x1024.numel_eq).symm y) := by
    show _ = ((Shape.reshapeEquiv _).toEmbedding.trans _) _
    simp
  have e0 : (sl0 : Memref sig .tc .vmem S1x1024 .f32).view.emb ((Shape.reshapeEquiv squeezes_S1x1x1024_S1x1024.numel_eq).symm y)
      = ((scr : Memref sig .tc .vmem S2x1x1024 .f32).view.slice rect0).emb y := by
    show ((Shape.reshapeEquiv _).toEmbedding.trans _) _ = _
    simp
  rw [View.read_apply, e1, View.write_emb_of_mem _ _ (Finset.mem_univ _), View.read_apply, View.read_apply, e0]
  simp only [cast_cast, cast_eq]

omit [FloatOps F] in
/-- The row's ownership is its two slots'. -/
theorem scr_split (c : Dev nD) (f : Scr F) :
    ((((c : Thread nD τ).loc cc0_scratch0) ↦{fullShare} f) : sProp 𝕄) ⊢ iprop(slot0 c f ∗ slot1 c f) := by
  unfold slot0 slot1
  have h := (pointsTo_union (Ix := Unit) (Name := ℕ) (U := UU) (Lvl := ℕ) (ℓ := (c : Thread nD τ).loc cc0_scratch0) (q := fullShare) (f := f) sets_disjoint).1
  rw [sets_cover] at h
  exact h

omit [FloatOps F] in
/-- Put back from its two slots, at whatever each holds. -/
theorem scr_join (c : Dev nD) (f g : Scr F) :
    (iprop(slot0 c f ∗ slot1 c g) : sProp 𝕄) ⊢ iprop(∃ h : Scr F, ((c : Thread nD τ).loc cc0_scratch0) ↦{fullShare} h) := by
  unfold slot0 slot1
  have h := pointsTo_join (Ix := Unit) (Name := ℕ) (U := UU) (Lvl := ℕ) (ℓ := (c : Thread nD τ).loc cc0_scratch0) (q := fullShare) (f := f) (g := g) sets_disjoint
  rw [sets_cover] at h
  iintro H
  iexists _
  iapply h
  iexact H

end Cert.Kernel.Proto

end
-- ==== Proof.Bits.ProtoB.lean ====
/-
# The schedule of the row exchange, what a device owes, the levels, the proof data
-/
import proofs.«901099_g7700000000001100_dist_sum_ax1_xy_m1024_n512_v7x_xy2x2_bf16_1_alg».proof.Proof.Gen.Kernel
import proofs.«901099_g7700000000001100_dist_sum_ax1_xy_m1024_n512_v7x_xy2x2_bf16_1_alg».proof.Proof.Gen.Kernel.Skeleton
import proofs.«901099_g7700000000001100_dist_sum_ax1_xy_m1024_n512_v7x_xy2x2_bf16_1_alg».proof.Proof.Gen.Kernel.Launch
import proofs.«901099_g7700000000001100_dist_sum_ax1_xy_m1024_n512_v7x_xy2x2_bf16_1_alg».proof.Proof.Gen.Kernel.Points
import proofs.«901099_g7700000000001100_dist_sum_ax1_xy_m1024_n512_v7x_xy2x2_bf16_1_alg».proof.Proof.Bits.ProtoA
import proofs.«901099_g7700000000001100_dist_sum_ax1_xy_m1024_n512_v7x_xy2x2_bf16_1_alg».proof.Proof.Bits.Slots
import Idealize.ShloMosaic.Lib.Pipeline.Launch
import Idealize.ShloMosaic.Lib.Pipeline.Kit
import Idealize.ShloMosaic.Lib.Pipeline.Value
import Idealize.ShloMosaic.Lib.Tactic

noncomputable section

namespace Cert.Kernel.Proto

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The schedule -/

/-- What the row mate's signal hands `c`: the row mate's slot 1, at any contents, and that the row mate has reached
    round 0 of its receive cell. -/
def barPay (c : Dev nD) : sProp 𝕄 := iprop((∃ f, slot1 (peer c) f) ∗ reached ER (recvCell (peer c)) 0)
/-- What the completed read of slot 0 hands back: slot 0, a load of which reads `c`'s partial sums. -/
def sendPay (c : Dev nD) : sProp 𝕄 := iprop(∃ f, ⌜rd0 f = part m c⌝ ∗ slot0 c f)
/-- What the completed write of slot 1 hands over: slot 1, a load of which reads the row mate's partial sums. -/
def recvPay (c : Dev nD) : sProp 𝕄 := iprop(∃ f, ⌜rd1 f = part m (peer c)⌝ ∗ slot1 c f)

abbrev IsRow (g : GSem nD τ sig) : Prop := g.1.2 = .tc ∧ (g.2 = .reg barS ∨ g.2 = .dma sendS.sem ∨ g.2 = .dma recvS.sem)

/-- One round, round 0, one duty a cell: a barrier cell's is one unit, a send or receive cell's the slot's credit. -/
def rowRd : Rounds.Schedule (GSem nD τ sig) Unit 𝕄 where
  duties g r := if r = 0 ∧ IsRow g then {()} else ∅
  unitless _ := False
  amount g _ _ := if g.2 = .reg barS then 1 else N
  payload g _ _ :=
    if g.2 = .reg barS then barPay g.1.1
    else if g.2 = .dma recvS.sem then recvPay m g.1.1
    else if g.2 = .dma sendS.sem then sendPay m g.1.1
    else iprop(emp)
  amount_pos g _ _ _ := by
    by_cases h : g.2 = .reg barS
    · rw [if_pos h]; exact Nat.one_pos
    · rw [if_neg h]; exact N_pos

instance rowRd_payload_storable (g : GSem nD τ sig) (r : ℕ) (d : Unit) : BI.Storable (upEmb : UEmb _ 𝕄) ((rowRd (F := F) m).payload g r d) := by
  show BI.Storable upEmb (if g.2 = .reg barS then barPay g.1.1 else if g.2 = .dma recvS.sem then recvPay m g.1.1
    else if g.2 = .dma sendS.sem then sendPay m g.1.1 else iprop(emp))
  unfold barPay recvPay sendPay
  (repeat' split) <;> infer_instance

section Sched
variable (c : Dev nD)

theorem send_ne_bar : (SemLoc.dma sendS.sem : SemLoc sig) ≠ .reg barS := fun h => by cases h
theorem recv_ne_bar : (SemLoc.dma recvS.sem : SemLoc sig) ≠ .reg barS := fun h => by cases h
theorem send_ne_recv : (SemLoc.dma sendS.sem : SemLoc sig) ≠ .dma recvS.sem := by decide
theorem recv_ne_send : (SemLoc.dma recvS.sem : SemLoc sig) ≠ .dma sendS.sem := by decide

theorem duties_bar : (rowRd (F := F) m).duties (barCell c) 0 = {()} := by dsimp only [rowRd]; exact if_pos ⟨rfl, rfl, .inl rfl⟩
theorem duties_send : (rowRd (F := F) m).duties (sendCell c) 0 = {()} := by dsimp only [rowRd]; exact if_pos ⟨rfl, rfl, .inr (.inl rfl)⟩
theorem duties_recv : (rowRd (F := F) m).duties (recvCell c) 0 = {()} := by dsimp only [rowRd]; exact if_pos ⟨rfl, rfl, .inr (.inr rfl)⟩
theorem duties_later (g : GSem nD τ sig) : ∀ r, 1 ≤ r → (rowRd (F := F) m).duties g r = ∅ :=
  fun r hr => by dsimp only [rowRd]; exact if_neg fun h => by omega

theorem amount_bar (u : Unit) : (rowRd (F := F) m).amount (barCell c) 0 u = 1 := by dsimp only [rowRd]; exact if_pos rfl
theorem amount_send (u : Unit) : (rowRd (F := F) m).amount (sendCell c) 0 u = N := by dsimp only [rowRd]; exact if_neg send_ne_bar
theorem amount_recv (u : Unit) : (rowRd (F := F) m).amount (recvCell c) 0 u = N := by dsimp only [rowRd]; exact if_neg recv_ne_bar

theorem expect_bar : (rowRd (F := F) m).expect (barCell c) 0 = 1 := by
  unfold Schedule.expect Schedule.amountOf; rw [duties_bar, Finset.sum_singleton, amount_bar]
theorem expect_send : (rowRd (F := F) m).expect (sendCell c) 0 = N := by
  unfold Schedule.expect Schedule.amountOf; rw [duties_send, Finset.sum_singleton, amount_send]
theorem expect_recv : (rowRd (F := F) m).expect (recvCell c) 0 = N := by
  unfold Schedule.expect Schedule.amountOf; rw [duties_recv, Finset.sum_singleton, amount_recv]

theorem payload_bar (u : Unit) : (rowRd (F := F) m).payload (barCell c) 0 u = barPay c := by dsimp only [rowRd]; exact if_pos rfl
theorem payload_send (u : Unit) : (rowRd (F := F) m).payload (sendCell c) 0 u = sendPay m c := by
  dsimp only [rowRd]; rw [if_neg send_ne_bar, if_neg send_ne_recv, if_pos rfl]
theorem payload_recv (u : Unit) : (rowRd (F := F) m).payload (recvCell c) 0 u = recvPay m c := by
  dsimp only [rowRd]; rw [if_neg recv_ne_bar, if_pos rfl]

theorem rest_bar : bigSep ((rowRd (F := F) m).duties (barCell c) 0 \ ∅) (fun u => (rowRd (F := F) m).payload (barCell c) 0 u) = barPay c := by
  rw [Finset.sdiff_empty, duties_bar, bigSep_singleton, payload_bar]
theorem rest_send : bigSep ((rowRd (F := F) m).duties (sendCell c) 0 \ ∅) (fun u => (rowRd (F := F) m).payload (sendCell c) 0 u) = sendPay m c := by
  rw [Finset.sdiff_empty, duties_send, bigSep_singleton, payload_send]
theorem rest_recv : bigSep ((rowRd (F := F) m).duties (recvCell c) 0 \ ∅) (fun u => (rowRd (F := F) m).payload (recvCell c) 0 u) = recvPay m c := by
  rw [Finset.sdiff_empty, duties_recv, bigSep_singleton, payload_recv]

end Sched

/-! ## What each device owes at launch; the levels -/

/-- Device `c` owes its row mate's receive cell the slot's credit and its row mate's barrier cell one unit (the signal,
    which comes first, peels the last summand). -/
def O₀ (c : Dev nD) : CellTallies nD τ sig Unit := tallyAt (recvCell (peer c)) () N + tallyAt (barCell (peer c)) () 1

def L (g : GSem nD τ sig) : Finset Unit := if g.1.2 = .tc then {()} else ∅
/-- Barrier cells at 1, receive cells at 2, everything else (staging, send) at 0. -/
def lv (g : GSem nD τ sig) (_ : Unit) : ℕ := if g.2 = .reg barS then 1 else if g.2 = .dma recvS.sem then 2 else 0

theorem L_of_ne (g : GSem nD τ sig) (h : g.1.2 ≠ .tc) : L g = ∅ := if_neg h
theorem L_tc (c : Dev nD) (sm : SemLoc sig) : L ((c : Thread nD τ), sm) = {()} := if_pos rfl

theorem O₀_pos {c : Dev nD} {g : GSem nD τ sig} {u : Unit} (h : 0 < O₀ c g u) :
    g = recvCell (peer c) ∨ g = barCell (peer c) := by
  unfold O₀ at h
  rw [Pi.add_apply, Finsupp.add_apply, tallyAt_apply, tallyAt_apply] at h
  by_contra hn
  rw [not_or] at hn
  rw [if_neg (fun h' => hn.1 h'.1), if_neg (fun h' => hn.2 h'.1)] at h
  exact Nat.lt_irrefl 0 h

omit [FloatOps F] in
/-- A wait on a staging or send cell (level 0) is below everything a device may owe. -/
theorem mayWait_stage (c : Dev nD) (q : DmaSem sig) (hq : SemLoc.dma q ≠ .dma recvS.sem) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with rfl | rfl <;> exact Finset.mem_singleton_self _)
      (fun p hp => by rw [Finset.mem_singleton.mp hp]; dsimp only [lv]; rw [if_neg (fun h => by cases h), if_neg hq])
      (fun g u hg => by
        rcases O₀_pos hg with rfl | rfl
        · dsimp only [lv]; rw [if_neg recv_ne_bar, if_pos rfl]; decide
        · dsimp only [lv]; rw [if_pos rfl]; decide)
  · rw [MayWait_zero]; iintro -; iempintro

omit [FloatOps F] in
/-- At its barrier wait a device owes its row mate's receive credit only: a receive cell, above its barrier cell. -/
theorem mayWait_bar (c : Dev nD) :
    (levAts L lv : sProp 𝕄) ⊢ MayWait (c : Thread nD τ) (.reg barS) () (tallyAt (recvCell (peer c)) () N) :=
  MayOwe.of_cut (L := L) (lev := lv) 1 (fun p hp => by rw [Finset.mem_singleton.mp hp, L_tc]; exact Finset.mem_singleton_self _)
    (fun g u hg => by
      rw [tallyAt_apply] at hg
      by_cases h : g = recvCell (peer c) ∧ u = ()
      · rw [h.1, L_tc]; exact Finset.mem_singleton_self _
      · rw [if_neg h] at hg; exact absurd hg (Nat.lt_irrefl 0))
    (fun p hp => by rw [Finset.mem_singleton.mp hp]; dsimp only [lv]; rw [if_pos rfl])
    (fun g u hg => by
      rw [tallyAt_apply] at hg
      by_cases h : g = recvCell (peer c) ∧ u = ()
      · rw [h.1]; dsimp only [lv]; rw [if_neg recv_ne_bar, if_pos rfl]; decide
      · rw [if_neg h] at hg; exact absurd hg (Nat.lt_irrefl 0))

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- The kernel's result on device `c`: its partial sums plus its row mate's, as a column. -/
def outAt (c : Dev nD) : (cc0_stg1_0 : Ref sig .tc).ty.Contents (Elt F) := k0_pay1 (part m c) (part m (peer c))

/-- The cells' invariants device `c`'s body opens, under the names `K` the launch allocated them at: its own three, its
    row mate's barrier cell (its signal) and receive cell (its transfer). -/
def invs (K : Dev nD × Fin 3 → ℕ) (c : Dev nD) : sProp 𝕄 :=
  iprop(cellInv ER (rowRd m) (K (c, 0)) (barCell c) ∗ cellInv ER (rowRd m) (K (c, 1)) (sendCell c) ∗ cellInv ER (rowRd m) (K (c, 2)) (recvCell c)
    ∗ cellInv ER (rowRd m) (K (peer c, 0)) (barCell (peer c)) ∗ cellInv ER (rowRd m) (K (peer c, 2)) (recvCell (peer c)))

instance invs_persistent (K : Dev nD × Fin 3 → ℕ) (c : Dev nD) : BI.Persistent (invs m K c) := by unfold invs; infer_instance

/-- The protocol's ghost state device `c` starts from: the invariants; its positions at round 0 of its three cells; the
    reached-marks of the cells it pays and of its own send and receive cells; the three duty tokens it pays with — its
    row mate's barrier duty, its row mate's receive duty, its own send duty. -/
def ghost (K : Dev nD × Fin 3 → ℕ) (c : Dev nD) : sProp 𝕄 :=
  iprop(invs m K c
    ∗ atPos ER (barCell c) 0 ∅ 0 ∗ atPos ER (sendCell c) 0 ∅ 0 ∗ atPos ER (recvCell c) 0 ∅ 0
    ∗ reached ER (barCell (peer c)) 0 ∗ reached ER (recvCell (peer c)) 0 ∗ reached ER (sendCell c) 0 ∗ reached ER (recvCell c) 0
    ∗ dutyTok ER (barCell (peer c)) 0 () ∗ dutyTok ER (recvCell (peer c)) 0 () ∗ dutyTok ER (sendCell c) 0 ())

/-- What device `c`'s body starts from: that at some names, its two credit tokens (its barrier's unit, its receive
    cell's credit) and the level facts. -/
def start (c : Dev nD) : sProp 𝕄 :=
  iprop((∃ K, ghost m K c) ∗ cred (tallyAt (barCell c) () 1) ∗ cred (tallyAt (recvCell c) () N) ∗ levAts L lv)

/-- The scratch row, whole, at some contents. -/
def scrAny (c : Dev nD) : sProp 𝕄 := iprop(∃ f : Scr F, ((c : Thread nD τ).loc cc0_scratch0) ↦{fullShare} f)

def Φ₀ (c : Dev nD) : sProp 𝕄 := iprop(start m c ∗ scrAny c)
/-- After the point: the scratch row back whole, the two own cells at zero, closed. -/
def Φ₁ (c : Dev nD) : sProp 𝕄 := iprop(scrAny c ∗ semVal (sendCell c) 0 ∗ semVal (recvCell c) 0)

def dats (_ : Fin 1) (c : Dev nD) : Dat τ (Elt F) Unit ℕ UU ℕ cfg0 c where
  A w := m ((cfg0.win w).arr.view.loc (c : Thread nD τ))
  after w _ := match w with
    | ⟨0, _⟩ => xblk m c
    | ⟨1, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

abbrev 𝒱₀ : Variants := Variants.none

omit [FloatOps F] in
theorem bigSep_W (Φ : Fin cfg0.W → sProp 𝕄) : bigSep Finset.univ Φ = iprop(Φ (0 : Fin 2) ∗ Φ (1 : Fin 2)) := bigSep_W0 Φ

theorem fetch_0 (t : Fin cfg0.N) : (cfg0.win (0 : Fin 2)).fetch t = true := by rw [fin_N t]; rfl

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

end Cert.Kernel.Proto

end
-- ==== Proof.Bits.Body.lean ====
/-
# One device's body of the row exchange, and the body obligation

The body runs, in program order: the signal to the row mate's barrier cell, the wait on its own, the block's row sums
stored into slot 0, the transfer of slot 0 into the row mate's slot 1, the waits on the send and the receive cell, and
the sum of the two slots stored as the result's column. Between the signal and the receive wait the device holds only
slot 0 of its scratch row: slot 1 is with the row mate, whose transfer writes it.
-/
import proofs.«901099_g7700000000001100_dist_sum_ax1_xy_m1024_n512_v7x_xy2x2_bf16_1_alg».proof.Proof.Gen.Kernel
import proofs.«901099_g7700000000001100_dist_sum_ax1_xy_m1024_n512_v7x_xy2x2_bf16_1_alg».proof.Proof.Gen.Kernel.Skeleton
import proofs.«901099_g7700000000001100_dist_sum_ax1_xy_m1024_n512_v7x_xy2x2_bf16_1_alg».proof.Proof.Gen.Kernel.Launch
import proofs.«901099_g7700000000001100_dist_sum_ax1_xy_m1024_n512_v7x_xy2x2_bf16_1_alg».proof.Proof.Gen.Kernel.Points
import proofs.«901099_g7700000000001100_dist_sum_ax1_xy_m1024_n512_v7x_xy2x2_bf16_1_alg».proof.Proof.Bits.ProtoB
import Idealize.ShloMosaic.Lib.Pipeline.Launch
import Idealize.ShloMosaic.Lib.Pipeline.Kit
import Idealize.ShloMosaic.Lib.Pipeline.Value
import Idealize.ShloMosaic.Lib.Tactic

noncomputable section

namespace Cert.Kernel.Proto

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section Body

variable (K : Dev nD × Fin 3 → ℕ)

abbrev rx : Rect S1024x512 := Rect.unit (s := S1024x512) ![0, 0] S1024x512.size inb_S1024x512_S1024x512_0_0
abbrev ro : Rect S1024x1 := Rect.unit (s := S1024x1) ![0, 0] S1024x1.size inb_S1024x1_S1024x1_0_0

omit [FloatOps F] in
theorem hz2 : (![0, 0] : Fin 2 → Nat) = fun _ => 0 := funext fun a => by fin_cases a <;> rfl
omit [FloatOps F] in
theorem read_x (f : (cc0_stg0_0 : Ref sig .tc).ty.Contents (Elt F)) : (xM : Memref sig .tc .vmem S1024x512 .f32).view.readAt (Elt F) rx.toLoadRect f = f :=
  Memref.readAt_unit_zero (Elt F) cc0_stg0_0 hz2 _ f
omit [FloatOps F] in
theorem write_out (f w : (cc0_stg1_0 : Ref sig .tc).ty.Contents (Elt F)) :
    ((oM : Memref sig .tc .vmem S1024x1 .f32).access ro : View sig .tc _ _ _).write (Elt F) f w Finset.univ = w :=
  Memref.write_access_unit_zero_univ (Elt F) cc0_stg1_0 hz2 _ f w

/-- The transfer of slot 0 into the row mate's slot 1, at the protocol's cells: the source comes back holding the partial
    sums it held, the destination is handed over holding them too, whatever it held before. -/
theorem wp_send_row (c n : Dev nD) (hn : n = peer c) {hsc : (sl1 : Memref sig (Dev.tc n : Thread nD τ).2.kind .vmem S1x1024 .f32).view.ref.isScScratch = false}
    {hsrc : (sl0 : Memref sig .tc .vmem S1x1024 .f32).view.WordExact} {hdst : (sl1 : Memref sig .tc .vmem S1x1024 .f32).view.WordExact}
    {hsem : DmaTarget.Typed .vmem (.dma recvS.sem) (.remote (Dev.tc n : Thread nD τ) (sl1 : Memref sig .tc .vmem S1x1024 .f32) (.dma sendS.sem) hsc)}
    {α : Type} {Q : α → sProp 𝕄} {k : PUnit → Prog (TpuEff nD τ sig (Elt F) Λ₀ .tc) α}
    (fs : Scr F) (hfs : rd0 fs = part m c) (fn : Scr F) (W : Waits sig Unit) :
    iprop(cellInv ER (rowRd m) (K (c, 1)) (sendCell c) ∗ cellInv ER (rowRd m) (K (peer c, 2)) (recvCell (peer c))
        ∗ slot0 c fs ∗ slot1 (peer c) fn
        ∗ owes (c : Thread nD τ) (tallyAt (recvCell (peer c)) () N) W
        ∗ dutyTok ER (sendCell c) 0 () ∗ reached ER (sendCell c) 0
        ∗ dutyTok ER (recvCell (peer c)) 0 () ∗ reached ER (recvCell (peer c)) 0)
      ⊢ iprop(((cred (tallyAt (sendCell c) () N) ∗ owes (c : Thread nD τ) 0 W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma sl0 (.remote (Dev.tc n : Thread nD τ) sl1 (.dma sendS.sem) hsc) (.dma recvS.sem) hsrc hdst hsem) k) Q) := by
  subst hn
  unfold slot0 slot1
  exact Rounds.wp_send_pointsTo 𝒱₀ ER (rowRd m) (c : Thread nD τ) none (c' := (peer c : Thread nD τ)) (src := sl0) (dst := sl1) (q := fullShare) (κ₁ := K (c, 1)) (κ₂ := K (peer c, 2))
    (r₁ := 0) (r₂ := 0) (d₁ := ()) (d₂ := ()) (fs := fs) (fd := fn)
    (by rw [duties_send]; exact Finset.mem_singleton_self _) (by rw [duties_recv]; exact Finset.mem_singleton_self _)
    () () N rfl (amount_send m c ()) (amount_recv m (peer c) ()) 0 (by rw [zero_add]) (W := W)
    (by
      rw [payload_send]; unfold sendPay slot0
      iintro H; iexists fs
      isplitr; · ipureintro; exact hfs
      iexact H)
    (by
      rw [payload_recv]; unfold recvPay slot1
      iintro H; iexists ((sl1 : Memref sig .tc .vmem S1x1024 .f32).view.write (Elt F) fn ((sl0 : Memref sig .tc .vmem S1x1024 .f32).view.read (Elt F) fs) Finset.univ)
      isplitr
      · ipureintro; rw [landing, peer_peer]; exact hfs
      iexact H)

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop((ghost m K c ∗ cred (tallyAt (barCell c) () 1) ∗ cred (tallyAt (recvCell c) () N) ∗ levAts L lv ∗ scrAny c)
    ∗ (dats m 0 c).owesAt () t₀.castSucc
    ∗ (∃ d, stg c cc0_stg0_0 ((dats m 0 c).before (0 : Fin 2) t₀ d))
    ∗ (∃ d, stg c cc0_stg1_0 ((dats m 0 c).before (1 : Fin 2) t₀ d)))

def bodyPost (c : Dev nD) : sProp 𝕄 :=
  iprop(Φ₁ c ∗ (dats m 0 c).owesAt () t₀.succ ∗ stg c cc0_stg0_0 (xblk m c) ∗ stg c cc0_stg1_0 (outAt m c))

/-! The schedule's payloads written out as the ownership they are: a slot of a scratch row at some contents, beside what is known of them. -/
theorem payload_bar_own (c : Dev nD) (u : Unit) : (rowRd (F := F) m).payload (barCell c) 0 u
    = iprop((∃ f : Scr F, (sl1 : Memref sig .tc .vmem S1x1024 .f32).view.loc (peer c : Thread nD τ) ↦[(sl1 : Memref sig .tc .vmem S1x1024 .f32).view.set]{fullShare} f) ∗ reached ER (recvCell (peer c)) 0) := by
  rw [payload_bar]; rfl
theorem payload_send_own (c : Dev nD) (u : Unit) : (rowRd (F := F) m).payload (sendCell c) 0 u
    = iprop(∃ f : Scr F, ⌜rd0 f = part m c⌝ ∗ (sl0 : Memref sig .tc .vmem S1x1024 .f32).view.loc (c : Thread nD τ) ↦[(sl0 : Memref sig .tc .vmem S1x1024 .f32).view.set]{fullShare} f) := by
  rw [payload_send]; rfl
theorem payload_recv_own (c : Dev nD) (u : Unit) : (rowRd (F := F) m).payload (recvCell c) 0 u
    = iprop(∃ f : Scr F, ⌜rd1 f = part m (peer c)⌝ ∗ (sl1 : Memref sig .tc .vmem S1x1024 .f32).view.loc (c : Thread nD τ) ↦[(sl1 : Memref sig .tc .vmem S1x1024 .f32).view.set]{fullShare} f) := by
  rw [payload_recv]; rfl

omit [FloatOps F] in
theorem x_view (c : Dev nD) (f : (cc0_stg0_0 : Ref sig .tc).ty.Contents (Elt F)) :
    ((((c : Thread nD τ).loc cc0_stg0_0) ↦{fullShare} f) : sProp 𝕄)
      = ((xM : Memref sig .tc .vmem S1024x512 .f32).view.loc (c : Thread nD τ) ↦[(xM : Memref sig .tc .vmem S1024x512 .f32).view.set]{fullShare} f) := by
  rw [View.set_whole]
omit [FloatOps F] in
theorem o_view (c : Dev nD) (f : (cc0_stg1_0 : Ref sig .tc).ty.Contents (Elt F)) :
    ((((c : Thread nD τ).loc cc0_stg1_0) ↦{fullShare} f) : sProp 𝕄)
      = ((oM : Memref sig .tc .vmem S1024x1 .f32).view.loc (c : Thread nD τ) ↦[(oM : Memref sig .tc .vmem S1024x1 .f32).view.set]{fullShare} f) := by
  rw [View.set_whole]

attribute [local sl_rounds] duties_bar duties_send duties_recv amount_bar amount_send amount_recv
  payload_bar_own payload_send_own payload_recv_own expect_bar expect_send expect_recv
attribute [local sl_canon] dev1_eq dev2_eq

set_option maxHeartbeats 1600000 in
/-- One device's body, in program order. The signal and the transfer are handed over rule by rule (the signal gives away
    this device's slot 1, the transfer pays both its own send duty and the row mate's receive duty); the waits and the
    loads and stores between them are stepped from what the device then holds. -/
theorem sound_body (c : Dev nD) (Kt : PUnit → sProp 𝕄) :
    iprop(bodyPre m K c ∗ (bodyPost m c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) cc0_scratch1 cc0_scratch2) Kt := by
  simp only [cc0_body_eq_skeleton]; unfold cc0_body_skel
  simp only [k0_part1_eq_skeleton]; unfold k0_part1_skel
  simp only [semSignalWord, semWaitWord, Prog.lift, Prog.bind_op, Prog.bind_ret, Prog.pure_eq_ret, wp_deviceId]
  unfold bodyPre ghost invs scrAny
  iintro ⟨⟨⟨⟨⟨#HIbar, #HIsnd, #HIrcv, #HIbarP, #HIrcvP⟩, HatB, HatS, HatV, #HrBP, #HrVP, #HrS, #HrV, HtBP, HtVP, HtS⟩, HcB, HcV, #Hlev, ⟨%f0, Hscr⟩⟩,
    Ho, ⟨%d0, %g0, %hg0, Hx⟩, ⟨%d1, %g1, %hg1, Hout⟩⟩, Hk⟩
  have hx : g0 = xblk m c := by rw [hg0]; unfold Dat.before; rw [if_pos (fetch_0 t₀)]; rfl
  subst hx
  unfold Dat.owesAt Pipeline.owesWithin
  icases Ho with ⟨%W, %hW, HO⟩
  rw [show (dats m 0 c).owed t₀.castSucc = O₀ c from rfl]
  unfold O₀
  simp only [dev1_eq c]
  ihave Hs := (scr_split (F := F) c f0) $$ Hscr
  icases Hs with ⟨Hs0, Hs1⟩
  -- the signal to the row mate's barrier cell: with it go this device's slot 1 and that it is at round 0 of its receive cell
  iapply (Rounds.wp_signal 𝒱₀ ER (rowRd m) (c : Thread nD τ) none (dst := (peer c : Thread nD τ)) (κ := K (peer c, 0))
      (d := ()) (by rw [duties_bar]; exact Finset.mem_singleton_self _) ((amount_bar m (peer c) ()).trans (by decide)) () (tallyAt (recvCell (peer c)) () N) rfl)
    $$ [HO HtBP Hs1]
  · isplitr; · iexact HIbarP
    isplitl [HO]; · iexact HO
    isplitl [HtBP]; · iexact HtBP
    isplitl [Hs1]
    · rw [payload_bar]; unfold barPay; rw [peer_peer]
      isplitl [Hs1]; · iexists f0; iexact Hs1
      iexact HrV
    · iexact HrBP
  iintro HO
  ihave Hx' := (Entails.of_eq (x_view (F := F) c (xblk m c))) $$ Hx
  ihave Hout' := (Entails.of_eq (o_view (F := F) c g1)) $$ Hout
  unfold slot0
  have hmw := mayWait_bar (F := F) c
  sl_exec
  sl_unfold_words
  -- the transfer of slot 0 into the row mate's slot 1
  iapply (wp_send_row m K c _ (dev2_eq c) _ (show rd0 _ = part m c from (rd0_store f0 _).trans (congrArg k0_pay2 (read_x _))) HatB_pay1_v _) $$ [Hs0 HatB_pay1 HO HtS HtVP]
  · isplitr; · iexact HIsnd
    isplitr; · iexact HIrcvP
    isplitl [Hs0]; · unfold slot0; iexact Hs0
    isplitl [HatB_pay1]; · unfold slot1; iexact HatB_pay1
    isplitl [HO]; · iexact HO
    isplitl [HtS]; · iexact HtS
    isplitr; · iexact HrS
    isplitl [HtVP]; · iexact HtVP
    iexact HrVP
  iintro ⟨HcS, HO⟩
  sl_exec
  icases HatS_pay1 with ⟨%hfa, Hs0⟩
  icases HatV_pay1 with ⟨%hfb, Hs1⟩
  -- the two own cells close: their counters at zero are the device's again
  imod (Rounds.cell_close ER (rowRd m) (Set.mem_univ (K (c, 1))) (fun h => h) (R := 0 + 1) (duties_later m (sendCell c))) $$ [HatS] with HzS
  · isplitr; · iexact HIsnd
    iexact HatS
  imod (Rounds.cell_close ER (rowRd m) (Set.mem_univ (K (c, 2))) (fun h => h) (R := 0 + 1) (duties_later m (recvCell c))) $$ [HatV] with HzV
  · isplitr; · iexact HIrcv
    iexact HatV
  sl_exec
  sl_unfold_words
  rw [View.writes_singleton, write_out, wp_ret]; imodintro
  iapply Hk
  unfold bodyPost Φ₁ scrAny Dat.owesAt Pipeline.owesWithin
  rw [show (dats m 0 c).owed t₀.succ = 0 from rfl]
  isplitl [Hs0 Hs1 HzS HzV]
  · isplitl [Hs0 Hs1]
    · iapply (scr_join (F := F) c HatS_pay1_v HatV_pay1_v)
      unfold slot0 slot1
      isplitl [Hs0] <;> iassumption
    isplitl [HzS]; · iexact HzS
    iexact HzV
  isplitl [HO]
  · iexists (insert (SemLoc.dma recvS.sem, ()) (insert (SemLoc.dma sendS.sem, ()) (insert (SemLoc.reg barS, ()) W)))
    isplitr; · ipureintro; exact fun _ _ => Or.inl trivial
    iexact HO
  isplitl [Hx']
  · iexists _; isplitr; · (ipureintro; rfl)
    iapply (Entails.of_eq (x_view (F := F) c (xblk m c)).symm); iexact Hx'
  iexists _; isplitr; · (ipureintro; rfl)
  iapply (Entails.of_eq (o_view (F := F) c (outAt m c)).symm); iexact Hout'

set_option maxRecDepth 4000 in
def bodyPre' (c : Dev nD) : sProp 𝕄 :=
  iprop(Φ₀ m c ∗ (dats m 0 c).owesAt () t₀.castSucc
    ∗ (∃ d, stg c cc0_stg0_0 ((dats m 0 c).before (0 : Fin 2) t₀ d))
    ∗ (∃ d, stg c cc0_stg1_0 ((dats m 0 c).before (1 : Fin 2) t₀ d)))

end Body

set_option maxRecDepth 4000 in
/-- The body obligation on device `c`. -/
theorem body_obligation (c : Dev nD) : BodyObligation (dats (F := F) m 0 c) (defs₀ (F := F)) 𝒱₀ () Set.univ := fun t => by
  rw [fin_N t]
  rw [bigSep_W, bigSep_W]
  simp only [owns_whole_eq]
  show bodyPre' m c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) cc0_scratch1 cc0_scratch2) (fun _ => bodyPost m c)
  unfold bodyPre' Φ₀ start
  iintro ⟨⟨⟨⟨%K, Hg⟩, Hrest⟩, Hscr⟩, Ho, Hx, Hout⟩
  iapply (sound_body m K c fun _ => bodyPost m c)
  unfold bodyPre
  isplitr []
  · isplitl [Hg Hrest Hscr]
    · isplitl [Hg]; · iexact Hg
      icases Hrest with ⟨H1, H2, H3⟩
      isplitl [H1]; · iexact H1
      isplitl [H2]; · iexact H2
      isplitl [H3]; · iexact H3
      iexact Hscr
    isplitl [Ho]; · iexact Ho
    isplitl [Hx] <;> iassumption
  · iintro H; iexact H

end Cert.Kernel.Proto

end
-- ==== Proof.Bits.Launch.lean ====
/-
# The launch of the row exchange on the four devices

The barrier semaphore is the runtime's, not scoped to the launch: its counter at zero arrives among the unscoped
semaphores, and its cell's invariant is shared by the two devices of a row, so all twelve cells are allocated for all
devices at once. Each device is dealt the tokens of the duties IT pays: its row mate's barrier and receive duties (dealt
across the row by the swap, a permutation of the devices) and its own send duty.
-/
import proofs.«901099_g7700000000001100_dist_sum_ax1_xy_m1024_n512_v7x_xy2x2_bf16_1_alg».proof.Proof.Gen.Kernel
import proofs.«901099_g7700000000001100_dist_sum_ax1_xy_m1024_n512_v7x_xy2x2_bf16_1_alg».proof.Proof.Gen.Kernel.Skeleton
import proofs.«901099_g7700000000001100_dist_sum_ax1_xy_m1024_n512_v7x_xy2x2_bf16_1_alg».proof.Proof.Gen.Kernel.Launch
import proofs.«901099_g7700000000001100_dist_sum_ax1_xy_m1024_n512_v7x_xy2x2_bf16_1_alg».proof.Proof.Gen.Kernel.Points
import proofs.«901099_g7700000000001100_dist_sum_ax1_xy_m1024_n512_v7x_xy2x2_bf16_1_alg».proof.Proof.Bits.ProtoB
import proofs.«901099_g7700000000001100_dist_sum_ax1_xy_m1024_n512_v7x_xy2x2_bf16_1_alg».proof.Proof.Bits.Body
import Idealize.ShloMosaic.Lib.Pipeline.Launch
import Idealize.ShloMosaic.Lib.Pipeline.Kit
import Idealize.ShloMosaic.Lib.Pipeline.Value
import Idealize.ShloMosaic.Lib.Tactic

noncomputable section

namespace Cert.Kernel.Proto

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem ownSemFacts : Pipeline.OwnSemFacts cfg0.spec osem := by decide

theorem share_eq (c : Dev nD) (w : Fin cfg0.W) : (dats m 0 c).share w = fullShare := by unfold Dat.share; split <;> rfl

theorem kcell_injective : Function.Injective (kcell : Dev nD × Fin 3 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := by fin_cases k <;> fin_cases k' <;> first | rfl | exact absurd h2 (by decide)
  subst this; rfl
def rowCells : Finset (GSem nD τ sig) := Finset.univ.map ⟨kcell, kcell_injective⟩
def rowToks : Finset (GSem nD τ sig × ℕ × Unit) :=
  Finset.univ.map ⟨fun ck : Dev nD × Fin 3 => (kcell ck, 0, ()), fun _ _ h => kcell_injective (congrArg Prod.fst h)⟩

def u₀ : UU := (initOf (Pipeline.cells cfgs cellOf_inj) (Pipeline.launchToks cfgs cellOf_inj), initOf rowCells rowToks)

/-- The duty tokens of device `c`'s own cells. -/
def toks (c : Dev nD) : sProp 𝕄 := iprop(dutyTok ER (barCell c) 0 () ∗ dutyTok ER (sendCell c) 0 () ∗ dutyTok ER (recvCell c) 0 ())

/-- What the launch element deals device `c`. -/
def G (c : Dev nD) : sProp 𝕄 :=
  iprop((bigSep Finset.univ fun k : Fin 3 => roundState ER (rowRd m) (kcell (c, k)) 0)
    ∗ (bigSep Finset.univ fun k : Fin 3 => iprop(atPos ER (kcell (c, k)) 0 ∅ 0 ∗ reached ER (kcell (c, k)) 0)) ∗ toks c)

/-- What the global step makes of it. -/
def G' (c : Dev nD) : sProp 𝕄 := iprop(∃ K, ghost m K c)

omit [FloatOps F] in
theorem bigSep_fin3 (Φ : Fin 3 → sProp 𝕄) : bigSep Finset.univ Φ = iprop(Φ 0 ∗ Φ 1 ∗ Φ 2) := bigSep_univ_eq_bigSepL [0, 1, 2] (by decide) (by decide) Φ

theorem fund_row : BI.own (ER (initOf rowCells rowToks)) ⊢ (|==> bigSep Finset.univ (G m) : sProp 𝕄) := by
  have hX (Φ : GSem nD τ sig → sProp 𝕄) : bigSep rowCells Φ = bigSep Finset.univ fun c : Dev nD => bigSep Finset.univ fun k : Fin 3 => Φ (kcell (c, k)) := by
    unfold rowCells; rw [bigSep_map, bigSep_univ_prod]; rfl
  have hT : bigSep rowToks (fun x => (dutyTok ER x.1 x.2.1 x.2.2 : sProp 𝕄)) = bigSep Finset.univ fun c : Dev nD => toks c := by
    unfold rowToks; rw [bigSep_map, bigSep_univ_prod]
    exact bigSep_congr fun c _ => by unfold toks; rw [bigSep_fin3]; rfl
  iintro HX
  imod (Rounds.fund ER (rowRd m) rowCells rowToks) $$ HX with ⟨Hst, Hr, Hat, Htok⟩
  imodintro
  ihave Hst' := (Entails.of_eq (hX fun g => roundState ER (rowRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- The send and receive semaphores are the kernel's own two; -/
theorem ownSems0_eq (c : Dev nD) : (Pipeline.ownSems0 (Ix := Unit) (Name := ℕ) (U := UU) (Lvl := ℕ) (Val := Elt F) (τ := τ) osem c : sProp 𝕄)
    = iprop(semVal (sendCell c) 0 ∗ semVal (recvCell c) 0) := by
  rw [Pipeline.ownSems0_eq_of_list c osem [0, 1] (by decide) (by decide)]; rfl
omit [FloatOps F] in
/-- the barrier semaphore the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 3 => semVal (kcell (c, k)) 0 : sProp 𝕄) := by
  rw [ownSems0_eq, unscopedSems0_eq, bigSep_fin3]
  iintro ⟨⟨HS, HV⟩, HB⟩
  isplitl [HB]; · iexact HB
  isplitl [HS] <;> iassumption

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (rowRd m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 3 => semVal (kcell (c, k)) 0) ∗ bigSep Finset.univ fun k : Fin 3 => roundState ER (rowRd m) (kcell (c, k)) 0)
      ⊢ (|={Set.univ}=> bigSep Finset.univ fun k => iprop(∃ κ : ℕ, cellInv ER (rowRd m) κ (kcell (c, k))) : sProp 𝕄) from by
        rw [← bigSep_sep']
        exact (bigSep_mono fun k _ => (Rounds.body_intro ER (rowRd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

def records (K : Dev nD × Fin 3 → ℕ) : sProp 𝕄 :=
  iprop((bigSep Finset.univ fun ck : Dev nD × Fin 3 => cellInv ER (rowRd m) (K ck) (kcell ck))
    ∗ bigSep Finset.univ fun ck : Dev nD × Fin 3 => reached ER (kcell ck) 0)

instance records_persistent (K : Dev nD × Fin 3 → ℕ) : BI.Persistent (records m K) := by unfold records; infer_instance

theorem inv_at (K : Dev nD × Fin 3 → ℕ) (ck : Dev nD × Fin 3) :
    (bigSep Finset.univ fun ck : Dev nD × Fin 3 => (cellInv ER (rowRd m) (K ck) (kcell ck) : sProp 𝕄)) ⊢ cellInv ER (rowRd m) (K ck) (kcell ck) :=
  bigSep_elim (Finset.mem_univ ck)
omit [FloatOps F] in
theorem reached_at (ck : Dev nD × Fin 3) :
    (bigSep Finset.univ fun ck : Dev nD × Fin 3 => (reached ER (kcell ck) 0 : sProp 𝕄)) ⊢ reached ER (kcell ck) 0 :=
  bigSep_elim (Finset.mem_univ ck)

/-- What stays with device `c`: its positions, and the tokens of the duties IT pays. -/
def payToks (c : Dev nD) : sProp 𝕄 :=
  iprop(dutyTok ER (barCell (peer c)) 0 () ∗ dutyTok ER (recvCell (peer c)) 0 () ∗ dutyTok ER (sendCell c) 0 ())
def linear (c : Dev nD) : sProp 𝕄 :=
  iprop((atPos ER (barCell c) 0 ∅ 0 ∗ atPos ER (sendCell c) 0 ∅ 0 ∗ atPos ER (recvCell c) 0 ∅ 0) ∗ payToks c)

theorem ghost_intro (K : Dev nD × Fin 3 → ℕ) (c : Dev nD) : iprop(records m K ∗ linear c) ⊢ G' m c := by
  unfold records linear payToks G' ghost invs
  iintro ⟨⟨#HI, #HR⟩, ⟨HaB, HaS, HaV⟩, HtBP, HtVP, HtS⟩
  iexists K
  isplitr
  · isplitr; · iapply (inv_at m K (c, 0)); iexact HI
    isplitr; · iapply (inv_at m K (c, 1)); iexact HI
    isplitr; · iapply (inv_at m K (c, 2)); iexact HI
    isplitr; · iapply (inv_at m K (peer c, 0)); iexact HI
    iapply (inv_at m K (peer c, 2)); iexact HI
  isplitl [HaB]; · iexact HaB
  isplitl [HaS]; · iexact HaS
  isplitl [HaV]; · iexact HaV
  isplitr; · iapply (reached_at (F := F) (peer c, 0)); iexact HR
  isplitr; · iapply (reached_at (F := F) (peer c, 2)); iexact HR
  isplitr; · iapply (reached_at (F := F) (c, 1)); iexact HR
  isplitr; · iapply (reached_at (F := F) (c, 2)); iexact HR
  isplitl [HtBP]; · iexact HtBP
  isplitl [HtVP]; · iexact HtVP
  iexact HtS

omit [FloatOps F] in
/-- The tokens dealt across each row: a barrier's and a receive cell's token to the row mate, the send cell's kept. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep',
    bigSep_univ_equiv swap (fun c : Dev nD => (dutyTok ER (barCell c) 0 () : sProp 𝕄)),
    bigSep_univ_equiv swap (fun c : Dev nD => (dutyTok ER (recvCell c) 0 () : sProp 𝕄))]
  iintro ⟨H1, H2, H3⟩
  isplitl [H1]; · iexact H1
  isplitl [H3]; · iexact H3
  iexact H2

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (rowRd m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 3 => iprop(∃ κ : ℕ, cellInv ER (rowRd m) κ (kcell ck))),
    bigSep_congr (s := Finset.univ) (fun (c : Dev nD) _ => bigSep_sep' Finset.univ (fun k : Fin 3 => (atPos ER (kcell (c, k)) 0 ∅ 0 : sProp 𝕄)) (fun k => reached ER (kcell (c, k)) 0)),
    bigSep_sep', ← bigSep_univ_prod (fun ck : Dev nD × Fin 3 => (reached ER (kcell ck) 0 : sProp 𝕄))]
  iintro ⟨HI, ⟨Hat, #HR⟩, Htok⟩
  ihave HK := (BI.bigSep_exists_pi Finset.univ (fun (ck : Dev nD × Fin 3) (κ : ℕ) => (cellInv ER (rowRd m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply ((Entails.of_eq (bigSep_sep' Finset.univ (fun c : Dev nD => bigSep Finset.univ fun k : Fin 3 => (atPos ER (kcell (c, k)) 0 ∅ 0 : sProp 𝕄)) payToks).symm).trans
      (bigSep_mono fun c _ => show _ ⊢ linear c from Entails.of_eq (by unfold linear; rw [bigSep_fin3])))
    isplitl [Hat]; · iexact Hat
    iexact Htk

/-- The global step: own AND unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ### The launch credit -/

omit [FloatOps F] in
theorem bar_eq_iff {a b : Dev nD} : Iff (barCell a = barCell b) (a = b) :=
  ⟨fun h => Fin.ext (congrArg (fun g : GSem nD τ sig => g.1.1.val) h), fun h => h ▸ rfl⟩
omit [FloatOps F] in
theorem recv_eq_iff {a b : Dev nD} : Iff (recvCell a = recvCell b) (a = b) :=
  ⟨fun h => Fin.ext (congrArg (fun g : GSem nD τ sig => g.1.1.val) h), fun h => h ▸ rfl⟩

omit [FloatOps F] in
/-- What device `d` owes device `c`'s barrier cell: a unit if `d` is `c`'s row mate. -/
theorem owed_bar (d c : Dev nD) : O₀ d (barCell c) () = if d = peer c then 1 else 0 := by
  unfold O₀
  rw [Pi.add_apply, Finsupp.add_apply, tallyAt_ne_cell (fun h => recv_ne_bar (congrArg Prod.snd h).symm),
    tallyAt_apply, Finsupp.zero_apply, Nat.zero_add]
  by_cases h : d = peer c
  · subst h; rw [peer_peer, if_pos ⟨rfl, rfl⟩, if_pos rfl]
  · rw [if_neg (fun ⟨h1, _⟩ => h (by rw [← peer_peer d]; exact congrArg peer (bar_eq_iff.mp h1).symm)), if_neg h]

omit [FloatOps F] in
theorem owed_recv (d c : Dev nD) : O₀ d (recvCell c) () = if d = peer c then N else 0 := by
  unfold O₀
  rw [Pi.add_apply, Finsupp.add_apply, tallyAt_apply,
    tallyAt_ne_cell (fun h => recv_ne_bar (congrArg Prod.snd h)), Finsupp.zero_apply, Nat.add_zero]
  by_cases h : d = peer c
  · subst h; rw [peer_peer, if_pos ⟨rfl, rfl⟩, if_pos rfl]
  · rw [if_neg (fun ⟨h1, _⟩ => h (by rw [← peer_peer d]; exact congrArg peer (recv_eq_iff.mp h1).symm)), if_neg h]

omit [FloatOps F] in
theorem launch_bar (c : Dev nD) :
    tallyOn (barCell c) (launchCredit (Pipeline.owing O₀) 0 (barCell c)) = (tallyAt (barCell c) () 1 : CellTallies nD τ sig Unit) := by
  unfold tallyAt; refine congrArg _ (Finsupp.ext fun u => ?_); cases u
  rw [Pipeline.launchCredit_owing, Finsupp.single_eq_same, Finset.sum_congr rfl fun d _ => owed_bar d c,
    Finset.sum_ite_eq' Finset.univ (peer c) fun _ => 1, if_pos (Finset.mem_univ _)]

omit [FloatOps F] in
theorem launch_recv (c : Dev nD) :
    tallyOn (recvCell c) (launchCredit (Pipeline.owing O₀) 0 (recvCell c)) = (tallyAt (recvCell c) () N : CellTallies nD τ sig Unit) := by
  unfold tallyAt; refine congrArg _ (Finsupp.ext fun u => ?_); cases u
  rw [Pipeline.launchCredit_owing, Finsupp.single_eq_same, Finset.sum_congr rfl fun d _ => owed_recv d c, Finset.sum_ite_eq' Finset.univ (peer c) fun _ => N,
    if_pos (Finset.mem_univ _)]

omit [FloatOps F] in
theorem creds (c : Dev nD) :
    (Pipeline.launchCred O₀ c : sProp 𝕄) ⊢ iprop(cred (tallyAt (barCell c) () 1) ∗ cred (tallyAt (recvCell c) () N)) := by
  unfold Pipeline.launchCred
  rw [bigSep_univ_at _ (SemLoc.reg barS), launch_bar]
  refine sep_mono_right ?_
  rw [← launch_recv]
  exact bigSep_elim (Finset.mem_erase.mpr ⟨recv_ne_bar, Finset.mem_univ _⟩)

/-! ### The launch theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scrAny
  iintro ⟨Hs, -, ⟨%f, Hr⟩⟩
  isplitl [Hs]; · iexact Hs
  iexists f; iexact Hr

theorem phi1_exit (c : Dev nD) :
    (dats m 0 c).Φ (Fin.last cfg0.N) ⊢ iprop(emp ∗ Pipeline.ownSems0 osem c ∗ Pipeline.scopedRest cfg0.spec c) := by
  rw [show (dats m 0 c).Φ (Fin.last cfg0.N) = Φ₁ c from rfl, scopedRest0_eq, ownSems0_eq]
  unfold Φ₁ scrAny
  iintro ⟨⟨%f, Hr⟩, HzS, HzV⟩
  isplitr; · iempintro
  isplitl [HzS HzV]
  · isplitl [HzS] <;> iassumption
  iexists f; iexact Hr

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-! ### The run -/

def finalA (c : Dev nD) (w : Fin cfg0.W) : Buf (Elt F) ((cfg0.win w).arr.view.loc (c : Thread nD τ)) := (dats m 0 c).arrAt w cfg0.N

def QC : PUnit × MemSt nD τ sig (Elt F) → Prop := fun r =>
  ∀ c : Dev nD, ∀ w : Fin cfg0.W, r.2.mem ((cfg0.win w).arr.view.loc (c : Thread nD τ)) = finalA m c w

set_option maxRecDepth 8000 in
/-- At the compiled mesh of four devices, for any float values, from any memory with zero counters: every weakly fair
    execution of @main — the two devices of each row shaking hands on the barrier semaphore, then exchanging their partial
    row sums — terminates, and every final state has each device's result array at the computed contents and `x` unchanged. -/
theorem run_main : θ_run defs (onTc (τ := τ) (main (F := F))) ⟨m, fun _ => 0, ρ⟩ (QC m) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_row m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m) (hout := phi1_exit m)
    (QY := fun _ _ => True)
    (hY := fun c s' => by
      iintro ⟨-, -, HSI⟩
      imodintro
      isplitr; · ipureintro; trivial
      iexact HSI)
    (hQ := fun _ h c w => (h c).1 w)

/-- info: 'Cert.Kernel.Proto.run_main' depends on axioms: [propext, Classical.choice, Quot.sound] -/
#guard_msgs in #print axioms run_main

/-- The `x` array after the run holds what it held. -/
theorem finalA_x (c : Dev nD) : finalA m c (0 : Fin 2) = m (win0_0.arr.view.loc (c : Thread nD τ)) :=
  (dats (F := F) m 0 c).arrAt_in (0 : Fin 2) rfl _

end Cert.Kernel.Proto

end
-- ==== Proof.RowSum.lean ====
/-
# Sums of a row in pieces

A sum over 512 consecutive entries is the sum over 128 of four entries 128 apart, added left to right; a sum over 1024
consecutive entries is the sum of its two halves, in either order. Nothing but commutativity and associativity of the
addition is used, so these hold in any commutative additive monoid — the extended reals among them.
-/
import Mathlib.Algebra.BigOperators.Fin
import Mathlib.Algebra.BigOperators.Intervals

namespace Cert.RowSum

open Finset

variable {M : Type*} [AddCommMonoid M]

/-- Four column groups of 128, added group by group, are the 512 columns. -/
theorem sum_groups (f : ℕ → M) :
    ∑ l ∈ range 128, (((f l + f (128 + l)) + f (256 + l)) + f (384 + l)) = ∑ j ∈ range 512, f j := by
  have h4 : ∑ j ∈ range 512, f j
      = ((∑ l ∈ range 128, f l + ∑ l ∈ range 128, f (128 + l)) + ∑ l ∈ range 128, f (256 + l)) + ∑ l ∈ range 128, f (384 + l) := by
    rw [show (512 : ℕ) = 384 + 128 from rfl, sum_range_add, show (384 : ℕ) = 256 + 128 from rfl, sum_range_add,
      show (256 : ℕ) = 128 + 128 from rfl, sum_range_add]
  rw [h4, sum_add_distrib, sum_add_distrib, sum_add_distrib]

/-- The two halves of a row of 1024, the half at `512 y` first (`y` is 0 or 1), are the row. -/
theorem sum_halves (f : ℕ → M) (y : ℕ) (hy : y < 2) :
    ∑ j ∈ range 512, f (512 * y + j) + ∑ j ∈ range 512, f (512 * (1 - y) + j) = ∑ k ∈ range 1024, f k := by
  have h2 : ∑ k ∈ range 1024, f k = ∑ j ∈ range 512, f j + ∑ j ∈ range 512, f (512 + j) := by
    rw [show (1024 : ℕ) = 512 + 512 from rfl, sum_range_add]
  rw [h2]
  rcases (by omega : y = 0 ∨ y = 1) with rfl | rfl
  · simp
  · simp [add_comm]

/-- A slot's entry, as the kernel adds it up over a row `g` of 512 entries, is the row's sum. -/
theorem slot_sum (g : Fin 512 → M) (f : ℕ → M) (hg : ∀ k : Fin 512, g k = f k.val) :
    ∑ l : Fin 128, (((g ⟨0 + l.val, by omega⟩ + g ⟨128 + l.val, by omega⟩) + g ⟨256 + l.val, by omega⟩) + g ⟨384 + l.val, by omega⟩)
      = ∑ j ∈ range 512, f j := by
  simp only [hg]
  rw [Fin.sum_univ_eq_sum_range (fun l => (((f (0 + l) + f (128 + l)) + f (256 + l)) + f (384 + l))) 128]
  simp only [Nat.zero_add]
  exact sum_groups f

/-- A row of 1024 entries `h` summed is the sum over the positions below 1024. -/
theorem row_total (h : Fin 1024 → M) (f : ℕ → M) (hh : ∀ k : Fin 1024, h k = f k.val) :
    ∑ k : Fin 1024, h k = ∑ k ∈ range 1024, f k := by
  simp only [hh]
  exact Fin.sum_univ_eq_sum_range f 1024

end Cert.RowSum
-- ==== Proof.KValue.lean ====
/-
# What the row exchange computes, over the extended reals, against the whole array

At the ideal instance a device's partial sums are, row by row, the sum of its block's 512 columns (four groups of 128
added group by group, then the 128 lanes summed), and its result column is its partial sums plus its row mate's.
-/
import proofs.«901099_g7700000000001100_dist_sum_ax1_xy_m1024_n512_v7x_xy2x2_bf16_1_alg».proof.Proof.Launch
import proofs.«901099_g7700000000001100_dist_sum_ax1_xy_m1024_n512_v7x_xy2x2_bf16_1_alg».proof.Proof.RowSum
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.KValue

open Cert.KernelIdeal Cert.KernelIdeal.Gen Cert.KernelIdeal.Proto
open Idealize.ShloMosaic Idealize.ShloMosaic.TcCoe Idealize.ShloMosaic.ValueIdx Idealize.SL.Sem

/-- The result column at row `p` is the sum of the two slots there. -/
theorem pay1_apply (a b : FVec Ideal S1x1x1024 .f32) (p : Fin 1024) (q : Fin 1) :
    k0_pay1 (F := Ideal) a b (ix2 p q) = a (ix3 (0 : Fin 1) (0 : Fin 1) p) + b (ix3 (0 : Fin 1) (0 : Fin 1) p) := by
  have hq : q = 0 := Subsingleton.elim _ _
  subst hq
  unfold k0_pay1
  refine (transpose_ix2_apply _ transposes_S1x1024_p1_0_S1024x1 p (0 : Fin 1)).trans ?_
  refine (addf_apply _ _ _).trans ?_
  exact congrArg₂ (· + ·) (shapeCast_1ab_ab_apply a shapeCasts_S1x1x1024_S1x1024 (0 : Fin 1) p)
    (shapeCast_1ab_ab_apply b shapeCasts_S1x1x1024_S1x1024 (0 : Fin 1) p)

theorem lift_lane (p : Fin 1024) (l : Fin (S128x1024.size 0)) : reduces_S128x1024_S1024.lift (ix1 p) l = ix2 (n0 := 128) (n1 := 1024) l p := by
  funext a
  apply Fin.ext
  rw [Shape.Reduces.lift_val]
  match a with
  | ⟨0, _⟩ => simp [Shape.Reduces.liftVal]
  | ⟨1, _⟩ => simp [Shape.Reduces.liftVal]

/-- A slot's entry at row `p`: the 128 lanes of the four column groups added group by group, summed. -/
theorem pay2_apply (x : FVec Ideal S1024x512 .f32) (u v : Fin 1) (p : Fin 1024) :
    k0_pay2 (F := Ideal) x (ix3 u v p)
      = ∑ l : Fin 128, (((x (ix2 p ⟨0 + l.val, by omega⟩) + x (ix2 p ⟨128 + l.val, by omega⟩)) + x (ix2 p ⟨256 + l.val, by omega⟩)) + x (ix2 p ⟨384 + l.val, by omega⟩)) := by
  unfold k0_pay2
  refine (shapeCast_ab_1ab_apply _ shapeCasts_S1x1024_S1x1x1024 u v p).trans ?_
  refine (shapeCast_a_1a_apply _ shapeCasts_S1024_S1x1024 v p).trans ?_
  refine (Ideal.multiReduction_add_single _ _ reduces_S128x1024_S1024 _ _ (ix1 p)).trans ?_
  refine Finset.sum_congr rfl fun l _ => ?_
  rw [lift_lane]
  refine (transpose_ix2_apply _ transposes_S1024x128_p1_0_S128x1024 l p).trans ?_
  refine (addf_apply _ _ _).trans ?_
  refine congrArg₂ (· + ·) ((addf_apply _ _ _).trans (congrArg₂ (· + ·) ((addf_apply _ _ _).trans (congrArg₂ (· + ·) ?_ ?_)) ?_)) ?_
  · exact (slice2_axis1_eq 0 _ slices_S1024x512_o0_0_S1024x128 p l).trans (by rw [shapeCast_self])
  · exact (slice2_axis1_eq 128 _ slices_S1024x512_o0_128_S1024x128 p l).trans (by rw [shapeCast_self])
  · exact (slice2_axis1_eq 256 _ slices_S1024x512_o0_256_S1024x128 p l).trans (by rw [shapeCast_self])
  · exact (slice2_axis1_eq 384 _ slices_S1024x512_o0_384_S1024x128 p l).trans (by rw [shapeCast_self])

section Final

variable {F : FTy → Type} [FloatOps F] (m : (ℓ : Loc nD τ sig) → Buf (Elt F) ℓ)

/-- The argument window's one block is the whole argument buffer: the staged block is the buffer's contents. -/
theorem xblk_eq (c : Dev nD) : xblk m c = m ((c : Thread nD τ).loc main_arg0) := by
  unfold xblk
  have hz : (fun a => (win0_0.index (0 : Fin 1)) a * main_arg0.ty.shape.size a) = fun _ => 0 :=
    funext fun a => by fin_cases a <;> decide
  exact Memref.read_access_unit_zero (Elt F) main_arg0 hz (fun a => by fin_cases a <;> decide) _

/-- The result array after the run is what the body left in the result's staging buffer. -/
theorem finalA_out (c : Dev nD) : finalA m c (1 : Fin 2) = outAt m c := by
  have hz : (fun a => (win0_1.index (0 : Fin 1)) a * main_v1.ty.shape.size a) = fun _ => 0 :=
    funext fun a => by fin_cases a <;> decide
  have hr := Memref.read_access_unit_zero (Elt F) main_v1 hz (fun a => by fin_cases a <;> decide) (finalA m c (1 : Fin 2))
  refine hr.symm.trans ?_
  unfold finalA
  rw [show cfg0.N = ((0 : Fin 1) : Fin cfg0.N).val + 1 from rfl, (dats m 0 c).arrAt_succ (1 : Fin 2) (0 : Fin 1)]
  rw [show (cfg0.win (1 : Fin 2)).flush (0 : Fin 1) = true from by decide, if_pos rfl]
  exact View.read_write_univ _ _

end Final

/-! ## Against the whole array -/

open Layout in
theorem mesh_row : ∀ d : Dev nD, Layout.meshLin [2, 2] d.val [0] = d.val / 2 := by decide
open Layout in
theorem mesh_col : ∀ d : Dev nD, Layout.meshLin [2, 2] d.val [1] = d.val % 2 := by decide
theorem peer_row : ∀ d : Dev nD, (peer d).val / 2 = d.val / 2 := by decide
theorem peer_col : ∀ d : Dev nD, (peer d).val % 2 = 1 - d.val % 2 := by decide

/-- The row sums of a 2048 × 1024 array, as a column. -/
def rowsums (X : (⟨2, ![2048, 1024]⟩ : Shape).Idx → EReal) : (⟨2, ![2048, 1]⟩ : Shape).Idx → EReal :=
  fun i => ∑ k : Fin 1024, X (ix2 (i 0) k)

variable (m : (ℓ : Loc nD τ sig) → Buf (Elt Ideal) ℓ)

/-- Where every device's argument buffer holds its block of the whole array `X`, every device's result ends as its block
    of rows of `X`'s row sums: its own 512 columns and its row mate's are the two halves of each of its 1024 rows. -/
theorem out_block (X : (⟨2, ![2048, 1024]⟩ : Shape).Idx → EReal)
    (hag : ∀ c : Dev nD, m ((c : Thread nD τ).loc main_arg0)
      = Layout.blockN ⟨2, ![1024, 512]⟩ ⟨2, ![2048, 1024]⟩ (Layout.meshBlock [2, 2] ![[0], [1]] c) X)
    (c : Dev nD) :
    finalA m c (1 : Fin 2) = Layout.blockN ⟨2, ![1024, 1]⟩ ⟨2, ![2048, 1]⟩ (Layout.meshBlock [2, 2] ![[0], []] c) (rowsums X) := by
  rw [finalA_out]
  funext i
  obtain ⟨p, q, rfl⟩ : ∃ (p : Fin 1024) (q : Fin 1), i = ix2 p q := ⟨i 0, i 1, eq_ix2 i⟩
  have hp : p.val < 1024 := p.isLt
  have hc : c.val < 4 := c.isLt
  have hR : c.val / 2 * 1024 + p.val < 2048 := by omega
  -- the row of the whole array this entry sums, as a function of the column position
  let Fn : ℕ → EReal := fun k => if h : k < 1024 then X (ix2 ⟨c.val / 2 * 1024 + p.val, hR⟩ ⟨k, h⟩) else 0
  -- a device of this row holds, at row `p`, the half of that row at its column block
  have hx : ∀ (d : Dev nD), d.val / 2 = c.val / 2 → ∀ k : Fin 512, xblk m d (ix2 p k) = Fn (512 * (d.val % 2) + k.val) := by
    intro d hd k
    have hk : k.val < 512 := k.isLt
    have hd4 : d.val < 4 := d.isLt
    have hlt : 512 * (d.val % 2) + k.val < 1024 := by omega
    rw [xblk_eq, hag d, Layout.blockN_apply]
    show _ = dite _ _ _
    rw [dif_pos hlt]
    refine congrArg X (funext fun a => Fin.ext ?_)
    match a with
    | ⟨0, _⟩ =>
      show Layout.meshLin [2, 2] d.val [0] * 1024 + p.val = c.val / 2 * 1024 + p.val
      rw [mesh_row, hd]
    | ⟨1, _⟩ =>
      show Layout.meshLin [2, 2] d.val [1] * 512 + k.val = 512 * (d.val % 2) + k.val
      rw [mesh_col, Nat.mul_comm]
  have hmine := RowSum.slot_sum (M := EReal) (fun k : Fin 512 => (xblk m c (ix2 p k) : EReal)) (fun j => Fn (512 * (c.val % 2) + j)) (hx c rfl)
  have hmate := RowSum.slot_sum (M := EReal) (fun k : Fin 512 => (xblk m (peer c) (ix2 p k) : EReal)) (fun j => Fn (512 * ((peer c).val % 2) + j)) (hx (peer c) (peer_row c))
  rw [peer_col] at hmate
  have hrow : rowsums X (ix2 ⟨c.val / 2 * 1024 + p.val, hR⟩ q) = ∑ k ∈ Finset.range 1024, Fn k := by
    unfold rowsums
    exact RowSum.row_total (M := EReal) _ Fn fun k => by
      show _ = dite _ _ _
      rw [dif_pos k.isLt]
  have hidx : (Layout.blockN ⟨2, ![1024, 1]⟩ ⟨2, ![2048, 1]⟩ (Layout.meshBlock [2, 2] ![[0], []] c) (rowsums X)) (ix2 p q)
      = rowsums X (ix2 ⟨c.val / 2 * 1024 + p.val, hR⟩ q) := by
    rw [Layout.blockN_apply]
    refine congrArg (rowsums X) (funext fun a => Fin.ext ?_)
    match a with
    | ⟨0, _⟩ =>
      show Layout.meshLin [2, 2] c.val [0] * 1024 + p.val = c.val / 2 * 1024 + p.val
      rw [mesh_row]
    | ⟨1, _⟩ =>
      show 0 * 1 + q.val = q.val
      rw [Nat.zero_mul, Nat.zero_add]
  rw [hidx, hrow, ← RowSum.sum_halves (M := EReal) Fn (c.val % 2) (Nat.mod_lt _ (by decide)), ← hmine, ← hmate]
  unfold outAt
  refine (pay1_apply _ _ p q).trans ?_
  unfold Proto.part
  exact congrArg₂ (· + ·) (pay2_apply _ _ _ p) (pay2_apply _ _ _ p)

end Cert.KernelIdeal.KValue

end
-- ==== Proof.RefValue.lean ====
/-
# The reference's value: the row sums

The reference adds each row of the whole array to the constant zero and lays the sums out as a column: at the ideal
instance, entry `(r, 0)` of its result is the sum of row `r`.
-/
import proofs.«901099_g7700000000001100_dist_sum_ax1_xy_m1024_n512_v7x_xy2x2_bf16_1_alg».proof.Proof.Gen.ReferenceIdeal.Run
import proofs.«901099_g7700000000001100_dist_sum_ax1_xy_m1024_n512_v7x_xy2x2_bf16_1_alg».proof.Proof.Gen.ReferenceIdeal.Read
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read
open Idealize.ShloMosaic Idealize.ShloMosaic.ValueIdx

/-- Entry `i` of the reference's result is the sum of row `i 0` of its argument. -/
theorem ref_rowsums (X : (⟨S2048x1024, .f32⟩ : BufTy).Contents (Elt Ideal)) (i : S2048x1.Idx) :
    val_main_v1 (F := Ideal) X i = ∑ k : Fin 1024, X (ix2 (i 0) k) := by
  rw [val_main_v1_apply, val_main_v0_apply, val_main_cst_apply]
  rw [show (FloatOps.ofBits .f32 0x00000000#32 : Ideal .f32) = 0 from Ideal.ofBits_zero_f32, zero_add]
  refine Finset.sum_congr rfl fun k _ => congrArg X (funext fun a => Fin.ext ?_)
  match a with
  | ⟨0, _⟩ => rfl
  | ⟨1, _⟩ => rfl

end Cert.ReferenceIdeal.RefValue

end
-- ==== Proof.lean ====
/-
# Row sums of a 2048 × 1024 array on a 2 × 2 mesh, against the one-device sum along the columns

Device `(i, j)` sums its 1024 × 512 block along the columns, exchanges the partial sums with its row mate `(i, 1 - j)`
and adds the two: each device of row `i` ends with rows `[1024 i, 1024 i + 1024)` of the whole array's row sums. Over the
extended reals that is the reference's sum along all 1024 columns, the two column halves added in either order.

The three frames are the programs' runs with the values dropped: the kernel's run (every fair interleaving of the four
devices terminates — each barrier wait is paid by the row mate's signal, each receive wait by the row mate's transfer,
and a device waits on a barrier cell only while owing a receive cell, which lies above it) at the word-level and at the
ideal instance, and the reference's straight-line run. The ideal pass rewrote nothing, so the idealization is the
program's own text. The equivalence names the reference's result as the row sums of the whole array and reads both runs
at it.
-/
import proofs.«901099_g7700000000001100_dist_sum_ax1_xy_m1024_n512_v7x_xy2x2_bf16_1_alg».proof.Defs
import proofs.«901099_g7700000000001100_dist_sum_ax1_xy_m1024_n512_v7x_xy2x2_bf16_1_alg».proof.Proof.Gen.Kernel
import proofs.«901099_g7700000000001100_dist_sum_ax1_xy_m1024_n512_v7x_xy2x2_bf16_1_alg».proof.Proof.Gen.Kernel.Skeleton
import proofs.«901099_g7700000000001100_dist_sum_ax1_xy_m1024_n512_v7x_xy2x2_bf16_1_alg».proof.Proof.Gen.Kernel.Launch
import proofs.«901099_g7700000000001100_dist_sum_ax1_xy_m1024_n512_v7x_xy2x2_bf16_1_alg».proof.Proof.Gen.Kernel.Points
import proofs.«901099_g7700000000001100_dist_sum_ax1_xy_m1024_n512_v7x_xy2x2_bf16_1_alg».proof.Proof.Gen.Kernel.Frame
import proofs.«901099_g7700000000001100_dist_sum_ax1_xy_m1024_n512_v7x_xy2x2_bf16_1_alg».proof.Proof.Gen.KernelIdeal
import proofs.«901099_g7700000000001100_dist_sum_ax1_xy_m1024_n512_v7x_xy2x2_bf16_1_alg».proof.Proof.Gen.KernelIdeal.Skeleton
import proofs.«901099_g7700000000001100_dist_sum_ax1_xy_m1024_n512_v7x_xy2x2_bf16_1_alg».proof.Proof.Gen.KernelIdeal.Launch
import proofs.«901099_g7700000000001100_dist_sum_ax1_xy_m1024_n512_v7x_xy2x2_bf16_1_alg».proof.Proof.Gen.KernelIdeal.Points
import proofs.«901099_g7700000000001100_dist_sum_ax1_xy_m1024_n512_v7x_xy2x2_bf16_1_alg».proof.Proof.Gen.KernelIdeal.Frame
import proofs.«901099_g7700000000001100_dist_sum_ax1_xy_m1024_n512_v7x_xy2x2_bf16_1_alg».proof.Proof.Gen.ReferenceIdeal
import proofs.«901099_g7700000000001100_dist_sum_ax1_xy_m1024_n512_v7x_xy2x2_bf16_1_alg».proof.Proof.Gen.ReferenceIdeal.Run
import proofs.«901099_g7700000000001100_dist_sum_ax1_xy_m1024_n512_v7x_xy2x2_bf16_1_alg».proof.Proof.Gen.ReferenceIdeal.Read
import proofs.«901099_g7700000000001100_dist_sum_ax1_xy_m1024_n512_v7x_xy2x2_bf16_1_alg».proof.Proof.Gen.Pre_finite_inputs_Kernel
import proofs.«901099_g7700000000001100_dist_sum_ax1_xy_m1024_n512_v7x_xy2x2_bf16_1_alg».proof.Proof.Gen.Pre_finite_inputs_ReferenceIdeal
import proofs.«901099_g7700000000001100_dist_sum_ax1_xy_m1024_n512_v7x_xy2x2_bf16_1_alg».proof.Proof.Launch
import proofs.«901099_g7700000000001100_dist_sum_ax1_xy_m1024_n512_v7x_xy2x2_bf16_1_alg».proof.Proof.Bits.Launch
import proofs.«901099_g7700000000001100_dist_sum_ax1_xy_m1024_n512_v7x_xy2x2_bf16_1_alg».proof.Proof.KValue
import proofs.«901099_g7700000000001100_dist_sum_ax1_xy_m1024_n512_v7x_xy2x2_bf16_1_alg».proof.Proof.RefValue
import Idealize.ShloMosaic.Adequacy
import Idealize.ShloMosaic.Init

noncomputable section

namespace Cert.Proof

open Idealize.ShloMosaic Idealize.SL.Sem

/-- The word-level kernel runs and leaves `x` as it was. -/
theorem frame_kernel : Cert.frame_Kernel := fun m ρ _ =>
  (θ_run Cert.Kernel.defs _ _).mono (fun _ h c => (h c (0 : Fin 2)).trans (Cert.Kernel.Proto.finalA_x m c))
    (Cert.Kernel.Proto.run_main (F := Bits) m ρ)

/-- The idealized kernel runs and leaves `x` as it was. -/
theorem frame_kernelIdeal : Cert.frame_KernelIdeal := fun m ρ _ =>
  (θ_run Cert.KernelIdeal.defs _ _).mono (fun _ h c => (h c (0 : Fin 2)).trans (Cert.KernelIdeal.Proto.finalA_x m c))
    (Cert.KernelIdeal.Proto.run_main (F := Ideal) m ρ)

/-- The reference runs and leaves its argument as it was. -/
theorem frame_reference : Cert.frame_ReferenceIdeal := fun m ρ _ =>
  (θ_run Cert.ReferenceIdeal.defs _ _).mono (fun _ h c => (h c).2) (Cert.ReferenceIdeal.Value.run (F := Ideal) m ρ)

/-- Both programs end at the row sums of the whole array: the reference at all of them, device `c` at its block of rows. -/
theorem algebraic : Cert.algebraic_KernelIdeal_ReferenceIdeal := fun m ρ m' ρ' _ hagree =>
  ⟨Cert.KernelIdeal.KValue.rowsums (m' (((0 : Dev Cert.ReferenceIdeal.nD).tc : Thread Cert.ReferenceIdeal.nD Cert.ReferenceIdeal.τ).loc Cert.ReferenceIdeal.main_arg0)),
    (θ_run Cert.KernelIdeal.defs _ _).mono
      (fun _ h c => ⟨(h c (1 : Fin 2)).trans (Cert.KernelIdeal.KValue.out_block m _ hagree c),
        (h c (0 : Fin 2)).trans (Cert.KernelIdeal.Proto.finalA_x m c)⟩)
      (Cert.KernelIdeal.Proto.run_main (F := Ideal) m ρ),
    (θ_run Cert.ReferenceIdeal.defs _ _).mono
      (fun _ h => ⟨((h 0).1.trans (Cert.ReferenceIdeal.Read.val_main_v1_eq _)).trans
          (funext fun i => Cert.ReferenceIdeal.RefValue.ref_rowsums _ i), (h 0).2⟩)
      (Cert.ReferenceIdeal.Value.run (F := Ideal) m' ρ')⟩

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  frame_kernel, frame_kernelIdeal, frame_reference, trivial, algebraic⟩

end Cert.Proof

end
